-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S1x1 : Shape := ⟨2, ![1, 1]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S64x512 : Shape := ⟨2, ![64, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x512, .f32⟩
  | .local _ .vmem, ⟨5, _⟩ => ⟨S512x512, .f32⟩
  | .local _ .vmem, ⟨6, _⟩ => ⟨S1x1, .f32⟩
  | .local _ .vmem, ⟨7, _⟩ => ⟨S1x1, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x512, .f32⟩
  | .local _ .vmem, ⟨13, _⟩ => ⟨S512x512, .f32⟩
  | .local _ .vmem, ⟨14, _⟩ => ⟨S1x1, .f32⟩
  | .local _ .vmem, ⟨15, _⟩ => ⟨S1x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  inb_S1x1_S1x1_0_0 : ∀ a, (![0, 0] : Fin 2 → Nat) a + S1x1.size a ≤ S1x1.size a
  h_S1x1 : 0 < S1x1.numel
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  shapeCasts_S512_S1x512 : S512.ShapeCasts S1x512
  bitsLt_bf16_f32 : FTy.bits .bf16 < FTy.bits .f32
  transposes_S512x64_p1_0_S64x512 : S512x64.Transposes [1, 0] S64x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  shapeCasts_S1x1_S1x1 : S1x1.ShapeCasts S1x1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S_S1x1 : S_.ShapeCasts S1x1
  inpos_S1x1_p0_0 : ∀ a, (![0, 0] : Fin 2 → Nat) a < S1x1.size a
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S4096x64.size a
  hwx1_0 : ∀ i : grid1.Coords, EltTy.bits .f32 = 32 ∨ (Rect.block (s := S4096x64) S512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S4096x64.size a
  hwx1_1 : ∀ i : grid1.Coords, EltTy.bits .f32 = 32 ∨ (Rect.block (s := S4096x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x64 : Shape := ⟨2, ![4096, 64]⟩
abbrev S4096x4096 : Shape := ⟨2, ![4096, 4096]⟩
abbrev S_ : Shape := ⟨0, ![]⟩
abbrev S4096 : Shape := ⟨1, ![4096]⟩
abbrev S64x4096 : Shape := ⟨2, ![64, 4096]⟩
abbrev S4096x1 : Shape := ⟨2, ![4096, 1]⟩
abbrev S1x4096 : Shape := ⟨2, ![1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S64x4096, .f32⟩
  | .hbm, ⟨6, _⟩ => ⟨S4096x4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  reducesTo_S4096x64_S4096_d1 : S4096x64.ReducesTo [1] S4096
  h_S_ : 0 < S_.numel
  transposes_S4096x64_S64x4096_1_0 : S4096x64.Transposes [1, 0] S64x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x64_S64x4096_S4096x4096_1_0_0_1_n_n_wf : DotDims.WF S4096x64 S64x4096 S4096x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Data.lean ====
/-
  What the two kernel regions hold, point by point.

  Both regions walk an 8 × 8 grid of 512 × 512 tiles of the pair table.  At a point they read a block of 512
  rows of the points table twice (the tile's rows and its columns) and the matching tile of the target
  distances; region 1 also reads the scale.  Their outputs are single cells that are reset at the first point and
  added to at every point, and written back once, after the last point: so what an output cell holds after
  point `n` is a fold over the points up to `n` of one step function, which is the kernel body's arithmetic.
-/
import proofs.«129287_j45200235823192_1_alg».proof.Proof.Gen.KernelIdeal.Skeleton
import proofs.«129287_j45200235823192_1_alg».proof.Proof.Gen.KernelIdeal.Points
import proofs.«129287_j45200235823192_1_alg».proof.Proof.Gen.KernelIdeal.Launch
import Idealize.ShloMosaic.Lib.Pipeline.Frame
import Idealize.ShloMosaic.Lib.Pipeline.FrameBody

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F]

-- the core's buffer contents when a region is entered
variable (V : (c : Dev nD) → (b : Ref sig .tc) → Buf (Elt F) ((c : Thread nD τ).loc b))

/-! ## Region 0: the two sums behind the scale -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first column of the tile at grid point `i`, as the body computes it. -/
def col0 (i : grid0.Coords) : BitVec 32 := Scalar.muli (BitVec.ofNat 32 (i 1).val) 512#32

/-- One point's update of the first output cell (the sum of the quotients): the body's arithmetic on the point's
    three blocks and on what the cell held. -/
def step0_3 (i : grid0.Coords) (x0 x1 : Vec F S512x64 .f32) (x2 : Vec F S512x512 .f32) (prev : Vec F S1x1 .f32) : Vec F S1x1 .f32 :=
  k0_pay2 (k0_pay6 x0 x1) (k0_pay7 i) (col0 i) x2 prev
/-- One point's update of the second output cell (the sum of the squared quotients). -/
def step0_4 (i : grid0.Coords) (x0 x1 : Vec F S512x64 .f32) (x2 : Vec F S512x512 .f32) (prev : Vec F S1x1 .f32) : Vec F S1x1 .f32 :=
  k0_pay3 (k0_pay6 x0 x1) (k0_pay7 i) (col0 i) x2 prev

/-- The first output cell after point `n`: the zero the first point stores, then one step per point. -/
def acc0_3 (c : Dev nD) : ℕ → Vec F S1x1 .f32
  | 0 => if h : 0 < cfg0.N then
      step0_3 (grid0.coords ⟨0, h⟩) (iblk0 V c 0 ⟨0, h⟩) (iblk0 V c 1 ⟨0, h⟩) (iblk0 V c 2 ⟨0, h⟩) (k0_pay4 (F := F))
    else k0_pay4 (F := F)
  | n + 1 => if h : n + 1 < cfg0.N then
      step0_3 (grid0.coords ⟨n + 1, h⟩) (iblk0 V c 0 ⟨n + 1, h⟩) (iblk0 V c 1 ⟨n + 1, h⟩) (iblk0 V c 2 ⟨n + 1, h⟩) (acc0_3 c n)
    else acc0_3 c n
/-- The second output cell after point `n`. -/
def acc0_4 (c : Dev nD) : ℕ → Vec F S1x1 .f32
  | 0 => if h : 0 < cfg0.N then
      step0_4 (grid0.coords ⟨0, h⟩) (iblk0 V c 0 ⟨0, h⟩) (iblk0 V c 1 ⟨0, h⟩) (iblk0 V c 2 ⟨0, h⟩) (k0_pay5 (F := F))
    else k0_pay5 (F := F)
  | n + 1 => if h : n + 1 < cfg0.N then
      step0_4 (grid0.coords ⟨n + 1, h⟩) (iblk0 V c 0 ⟨n + 1, h⟩) (iblk0 V c 1 ⟨n + 1, h⟩) (iblk0 V c 2 ⟨n + 1, h⟩) (acc0_4 c n)
    else acc0_4 c n

/-- Region 0's proof data on core `c`: the arrays as the region finds them; after the body each input's buffer at
    its block and each output's at the fold; the points table, read through two windows, held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0_3 V c t.val
    | ⟨4, _⟩ => acc0_4 V c t.val
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-! ## Region 1: the sum of the squared distortions -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first column of the tile at grid point `i`. -/
def col1 (i : grid1.Coords) : BitVec 32 := Scalar.muli (BitVec.ofNat 32 (i 1).val) 512#32

/-- One point's update of the output cell: the body's arithmetic on the point's three blocks, the scale and what
    the cell held. -/
def step1_4 (i : grid1.Coords) (x0 x1 : Vec F S512x64 .f32) (x2 : Vec F S512x512 .f32) (x3 prev : Vec F S1x1 .f32) : Vec F S1x1 .f32 :=
  k1_pay1 (k1_pay3 x0 x1) (k1_pay4 i) (col1 i) x2 x3 prev

/-- The output cell after point `n`. -/
def acc1_4 (c : Dev nD) : ℕ → Vec F S1x1 .f32
  | 0 => if h : 0 < cfg1.N then
      step1_4 (grid1.coords ⟨0, h⟩) (iblk1 V c 0 ⟨0, h⟩) (iblk1 V c 1 ⟨0, h⟩) (iblk1 V c 2 ⟨0, h⟩) (iblk1 V c 3 ⟨0, h⟩) (k1_pay2 (F := F))
    else k1_pay2 (F := F)
  | n + 1 => if h : n + 1 < cfg1.N then
      step1_4 (grid1.coords ⟨n + 1, h⟩) (iblk1 V c 0 ⟨n + 1, h⟩) (iblk1 V c 1 ⟨n + 1, h⟩) (iblk1 V c 2 ⟨n + 1, h⟩) (iblk1 V c 3 ⟨n + 1, h⟩) (acc1_4 c n)
    else acc1_4 c n

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1_4 V c t.val
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

end Cert.KernelIdeal.Hand

end
-- ==== Proof.Outs.lean ====
/-
  What the two regions leave behind, and the proof data of both at once.

  Region 0 is entered from the launch memory and leaves its two sums in `main_v0_0` and `main_v0_1`; the host
  then divides them and reshapes the quotient; region 1 is entered from that and leaves its sum in `main_v5`.
-/
import proofs.«129287_j45200235823192_1_alg».proof.Proof.Data
import proofs.«129287_j45200235823192_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- Region 0's entry contents: the launch memory. -/
abbrev Ve0 : (c : Dev nD) → (b : Ref sig .tc) → Buf (Elt F) ((c : Thread nD τ).loc b) := fun c b => Gen.V0 m c b

/-- What region 0 leaves in its two result arrays (every other entry: unread). -/
def outs1 : Gen.Outs (F := F) := fun _ r c =>
  if h : r = main_v0_0 then h ▸ ((dat0 (Ve0 m) c).arrAt 3 cfg0.N)
  else if h : r = main_v0_1 then h ▸ ((dat0 (Ve0 m) c).arrAt 4 cfg0.N)
  else m ((c : Thread nD τ).loc r)

/-- Region 1's entry contents: region 0's results in place, then the host's quotient and reshapes. -/
abbrev Ve2 : (c : Dev nD) → (b : Ref sig .tc) → Buf (Elt F) ((c : Thread nD τ).loc b) := fun c b => Gen.V2 m (outs1 m) c b

/-- What both regions leave. -/
def outs : Gen.Outs (F := F) := fun n r c =>
  if h : r = main_v5 then h ▸ ((dat1 (Ve2 m) c).arrAt 4 cfg1.N) else outs1 m n r c

theorem outs_v0_0 (c : Dev nD) : outs m 1 main_v0_0 c = (dat0 (Ve0 m) c).arrAt 3 cfg0.N := rfl
theorem outs_v0_1 (c : Dev nD) : outs m 1 main_v0_1 c = (dat0 (Ve0 m) c).arrAt 4 cfg0.N := rfl
theorem outs_v5 (c : Dev nD) : outs m 3 main_v5 c = (dat1 (Ve2 m) c).arrAt 4 cfg1.N := rfl
/-- Region 1 is entered from the same contents whichever of the two tables names them. -/
theorem V2_outs (c : Dev nD) : Gen.V2 m (outs m) c = Gen.V2 m (outs1 m) c := rfl

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve2 m) c

end Cert.KernelIdeal.Hand

end
-- ==== Proof.Shared.lean ====
/-
  The points table read through two windows: how a region's arrays are dealt out of the core's buffers at its
  entry and gathered back at its exit.

  A region holds each window's array at that window's share.  Windows 0 and 1 are both on the points table, so
  the table's buffer, held whole at the full share, is split into its left half (window 0) and its right half
  (window 1); every other window's array is a buffer of its own, held at the full share.  At the exit the two halves,
  both still at the entry contents (an input array is never written), join into the whole again.
-/
import proofs.«129287_j45200235823192_1_alg».proof.Proof.Data
import Idealize.ShloMosaic.Lib.Pipeline.Kit
import Idealize.ShloMosaic.Lib.Pipeline.Launch

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer held whole at the full share is held at its two halves, and back. -/
theorem halves (c : Dev nD) (b : Ref sig .tc) (f : Buf (Elt F) ((c : Thread nD τ).loc b)) :
    ((((c : Thread nD τ).loc b) ↦{fullShare} f) : sProp 𝕄)
      ⊣⊢ iprop((((c : Thread nD τ).loc b) ↦{fullShare.left} f) ∗ (((c : Thread nD τ).loc b) ↦{fullShare.right} f)) :=
  pointsTo_share (PosShare.mem_left_op_right fullShare)

/-- Region 0's entry: the four buffers behind its five windows, each whole at the entry contents, are its arrays. -/
theorem arrays_entry0 (c : Dev nD) :
    (Pipeline.arrBufs (Ix := Unit) (Name := ℕ) (U := UR sig nD τ) (Lvl := ℕ) spec0 c (V c) : sProp 𝕄)
      ⊢ (dat0 V c).arrays (fun w => (dat0 V c).arrAt w 0) := by
  unfold Pipeline.arrBufs Dat.arrays
  rw [bigSep_eq_bigSepL_of_eq [main_arg0, main_arg1, main_v0_0, main_v0_1] (by decide) (by decide), Gen.bigSep_W0]
  rw [(arr_whole0 0).set_eq_univ, (arr_whole0 2).set_eq_univ, (arr_whole0 3).set_eq_univ,
    (arr_whole0 4).set_eq_univ,
    show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  show (iprop((((c : Thread nD τ).loc main_arg0) ↦{fullShare} V c main_arg0) ∗ (((c : Thread nD τ).loc main_arg1) ↦{fullShare} V c main_arg1) ∗ (((c : Thread nD τ).loc main_v0_0) ↦{fullShare} V c main_v0_0) ∗ (((c : Thread nD τ).loc main_v0_1) ↦{fullShare} V c main_v0_1)) : sProp 𝕄) ⊢ _
  iintro ⟨H0, H1, H2, H3⟩
  ihave Hh := (halves c main_arg0 (V c main_arg0)).1 $$ H0
  icases Hh with ⟨Hl, Hr⟩
  isplitl [Hl]; · iexact Hl
  isplitl [Hr]; · iexact Hr
  isplitl [H1]; · iexact H1
  isplitl [H2]; · iexact H2
  iexact H3

/-- Region 0's exit: its arrays — the inputs as entered, the two results at what the write-backs left — are the four
    buffers behind them, whole, at any contents `V'` that agree with those. -/
theorem arrays_exit0 (c : Dev nD) (V' : (b : Ref sig .tc) → Buf (Elt F) ((c : Thread nD τ).loc b))
    (h0 : V' main_arg0 = V c main_arg0) (h1 : V' main_arg1 = V c main_arg1)
    (h3 : V' main_v0_0 = (dat0 V c).arrAt 3 cfg0.N) (h4 : V' main_v0_1 = (dat0 V c).arrAt 4 cfg0.N) :
    (dat0 V c).arrays (fun w => (dat0 V c).arrAt w cfg0.N)
      ⊢ (Pipeline.arrBufs (Ix := Unit) (Name := ℕ) (U := UR sig nD τ) (Lvl := ℕ) spec0 c V' : sProp 𝕄) := by
  unfold Pipeline.arrBufs Dat.arrays
  rw [bigSep_eq_bigSepL_of_eq [main_arg0, main_arg1, main_v0_0, main_v0_1] (by decide) (by decide), Gen.bigSep_W0]
  rw [(arr_whole0 0).set_eq_univ, (arr_whole0 2).set_eq_univ, (arr_whole0 3).set_eq_univ,
    (arr_whole0 4).set_eq_univ,
    show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  show _ ⊢ (iprop((((c : Thread nD τ).loc main_arg0) ↦{fullShare} V' main_arg0) ∗ (((c : Thread nD τ).loc main_arg1) ↦{fullShare} V' main_arg1) ∗ (((c : Thread nD τ).loc main_v0_0) ↦{fullShare} V' main_v0_0) ∗ (((c : Thread nD τ).loc main_v0_1) ↦{fullShare} V' main_v0_1)) : sProp 𝕄)
  beta_reduce
  rw [h0, h1, h3, h4, (dat0 V c).arrAt_in 0 rfl cfg0.N, (dat0 V c).arrAt_in 1 rfl cfg0.N, (dat0 V c).arrAt_in 2 rfl cfg0.N]
  have hh := (halves (F := F) c main_arg0 (V c main_arg0)).2
  iintro ⟨Hl, Hr, Hb, Hc, Hd⟩
  isplitl [Hl Hr]
  · iapply hh
    isplitl [Hl]; · iexact Hl
    iexact Hr
  isplitl [Hb]; · iexact Hb
  isplitl [Hc]; · iexact Hc
  iexact Hd

/-- Region 1's entry: the four buffers behind its five windows, each whole at the entry contents, are its arrays. -/
theorem arrays_entry1 (c : Dev nD) :
    (Pipeline.arrBufs (Ix := Unit) (Name := ℕ) (U := UR sig nD τ) (Lvl := ℕ) spec1 c (V c) : sProp 𝕄)
      ⊢ (dat1 V c).arrays (fun w => (dat1 V c).arrAt w 0) := by
  unfold Pipeline.arrBufs Dat.arrays
  rw [bigSep_eq_bigSepL_of_eq [main_arg0, main_arg1, main_v4, main_v5] (by decide) (by decide), Gen.bigSep_W1]
  rw [(arr_whole1 0).set_eq_univ, (arr_whole1 2).set_eq_univ, (arr_whole1 3).set_eq_univ,
    (arr_whole1 4).set_eq_univ,
    show (dat1 V c).share 0 = fullShare.left from rfl, show (dat1 V c).share 1 = fullShare.right from rfl,
    show (dat1 V c).share 2 = fullShare from rfl, show (dat1 V c).share 3 = fullShare from rfl,
    show (dat1 V c).share 4 = fullShare from rfl]
  show (iprop((((c : Thread nD τ).loc main_arg0) ↦{fullShare} V c main_arg0) ∗ (((c : Thread nD τ).loc main_arg1) ↦{fullShare} V c main_arg1) ∗ (((c : Thread nD τ).loc main_v4) ↦{fullShare} V c main_v4) ∗ (((c : Thread nD τ).loc main_v5) ↦{fullShare} V c main_v5)) : sProp 𝕄) ⊢ _
  iintro ⟨H0, H1, H2, H3⟩
  ihave Hh := (halves c main_arg0 (V c main_arg0)).1 $$ H0
  icases Hh with ⟨Hl, Hr⟩
  isplitl [Hl]; · iexact Hl
  isplitl [Hr]; · iexact Hr
  isplitl [H1]; · iexact H1
  isplitl [H2]; · iexact H2
  iexact H3

/-- Region 1's exit: its arrays — the inputs as entered, the result at what the write-back left — are the four buffers
    behind them, whole, at any contents `V'` that agree with those. -/
theorem arrays_exit1 (c : Dev nD) (V' : (b : Ref sig .tc) → Buf (Elt F) ((c : Thread nD τ).loc b))
    (h0 : V' main_arg0 = V c main_arg0) (h1 : V' main_arg1 = V c main_arg1) (h3 : V' main_v4 = V c main_v4)
    (h4 : V' main_v5 = (dat1 V c).arrAt 4 cfg1.N) :
    (dat1 V c).arrays (fun w => (dat1 V c).arrAt w cfg1.N)
      ⊢ (Pipeline.arrBufs (Ix := Unit) (Name := ℕ) (U := UR sig nD τ) (Lvl := ℕ) spec1 c V' : sProp 𝕄) := by
  unfold Pipeline.arrBufs Dat.arrays
  rw [bigSep_eq_bigSepL_of_eq [main_arg0, main_arg1, main_v4, main_v5] (by decide) (by decide), Gen.bigSep_W1]
  rw [(arr_whole1 0).set_eq_univ, (arr_whole1 2).set_eq_univ, (arr_whole1 3).set_eq_univ,
    (arr_whole1 4).set_eq_univ,
    show (dat1 V c).share 0 = fullShare.left from rfl, show (dat1 V c).share 1 = fullShare.right from rfl,
    show (dat1 V c).share 2 = fullShare from rfl, show (dat1 V c).share 3 = fullShare from rfl,
    show (dat1 V c).share 4 = fullShare from rfl]
  show _ ⊢ (iprop((((c : Thread nD τ).loc main_arg0) ↦{fullShare} V' main_arg0) ∗ (((c : Thread nD τ).loc main_arg1) ↦{fullShare} V' main_arg1) ∗ (((c : Thread nD τ).loc main_v4) ↦{fullShare} V' main_v4) ∗ (((c : Thread nD τ).loc main_v5) ↦{fullShare} V' main_v5)) : sProp 𝕄)
  beta_reduce
  rw [h0, h1, h3, h4, (dat1 V c).arrAt_in 0 rfl cfg1.N, (dat1 V c).arrAt_in 1 rfl cfg1.N, (dat1 V c).arrAt_in 2 rfl cfg1.N,
    (dat1 V c).arrAt_in 3 rfl cfg1.N]
  have hh := (halves (F := F) c main_arg0 (V c main_arg0)).2
  iintro ⟨Hl, Hr, Hb, Hc, Hd⟩
  isplitl [Hl Hr]
  · iapply hh
    isplitl [Hl]; · iexact Hl
    iexact Hr
  isplitl [Hb]; · iexact Hb
  isplitl [Hc]; · iexact Hc
  iexact Hd

/-! ## All of a core's buffers that outlive a region, against a region's arrays and the rest -/

/-- Entry of region 0 from all the core's unscoped buffers. -/
theorem bufs_entry0 (c : Dev nD) :
    (unscopedBufs (Ix := Unit) (Name := ℕ) (U := UR sig nD τ) (Lvl := ℕ) c (V c) : sProp 𝕄)
      ⊢ iprop((dat0 V c).arrays (fun w => (dat0 V c).arrAt w 0)
          ∗ Pipeline.unscopedRest (Ix := Unit) (Name := ℕ) (U := UR sig nD τ) (Lvl := ℕ) spec0 c (V c)) := by
  rw [Pipeline.unscopedBufs_split₀ (Ix := Unit) (Name := ℕ) (U := UR sig nD τ) (Lvl := ℕ) cfgs 0 winFacts₀0.arr_unscoped c (V c)]
  exact sep_mono (arrays_entry0 V c) .rfl

/-- Exit of region 0 to all the core's unscoped buffers at contents `V'`: the results at what the write-backs left,
    everything else as entered. -/
theorem bufs_exit0 (c : Dev nD) (V' : (b : Ref sig .tc) → Buf (Elt F) ((c : Thread nD τ).loc b))
    (h3 : V' main_v0_0 = (dat0 V c).arrAt 3 cfg0.N) (h4 : V' main_v0_1 = (dat0 V c).arrAt 4 cfg0.N)
    (hrest : ∀ b : Ref sig .tc, b ≠ main_v0_0 → b ≠ main_v0_1 → V' b = V c b) :
    iprop((dat0 V c).arrays (fun w => (dat0 V c).arrAt w cfg0.N)
          ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 0 winFacts₀0.arr_unscoped c V']
  refine sep_mono (arrays_exit0 V c V' (hrest _ (by decide) (by decide)) (hrest _ (by decide) (by decide)) h3 h4) (Entails.of_eq ?_)
  unfold Pipeline.unscopedRest
  exact bigSep_congr fun b hb => by
    have hb' := (Finset.mem_sdiff.mp hb).2
    rw [hrest b (fun e => hb' (e ▸ Finset.mem_image.mpr ⟨3, Finset.mem_univ _, rfl⟩))
      (fun e => hb' (e ▸ Finset.mem_image.mpr ⟨4, Finset.mem_univ _, rfl⟩))]

/-- Entry of region 1 from all the core's unscoped buffers. -/
theorem bufs_entry1 (c : Dev nD) :
    (unscopedBufs (Ix := Unit) (Name := ℕ) (U := UR sig nD τ) (Lvl := ℕ) c (V c) : sProp 𝕄)
      ⊢ iprop((dat1 V c).arrays (fun w => (dat1 V c).arrAt w 0)
          ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  exact sep_mono (arrays_entry1 V c) .rfl

/-- Exit of region 1 to all the core's unscoped buffers at contents `V'`. -/
theorem bufs_exit1 (c : Dev nD) (V' : (b : Ref sig .tc) → Buf (Elt F) ((c : Thread nD τ).loc b))
    (h4 : V' main_v5 = (dat1 V c).arrAt 4 cfg1.N)
    (hrest : ∀ b : Ref sig .tc, b ≠ main_v5 → V' b = V c b) :
    iprop((dat1 V c).arrays (fun w => (dat1 V c).arrAt w cfg1.N)
          ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 1 winFacts₀1.arr_unscoped c V']
  refine sep_mono (arrays_exit1 V c V' (hrest _ (by decide)) (hrest _ (by decide)) (hrest _ (by decide)) h4) (Entails.of_eq ?_)
  unfold Pipeline.unscopedRest
  exact bigSep_congr fun b hb => by
    have hb' := (Finset.mem_sdiff.mp hb).2
    rw [hrest b (fun e => hb' (e ▸ Finset.mem_image.mpr ⟨4, Finset.mem_univ _, rfl⟩))]

end Cert.KernelIdeal.Hand

end
-- ==== Proof.Segs.lean ====
/-
  The two kernel regions as segments of the program's run.

  Between two items a core holds every buffer that outlives a region, whole, at the contents the valuations name,
  beside its random-number register and the fact that it owes no one anything.  A region takes its arrays out of
  those buffers at entry (the points table split between the two windows that read it), runs its pipeline, and puts
  them back at exit with its results at what the write-backs left.
-/
import proofs.«129287_j45200235823192_1_alg».proof.Proof.Outs
import proofs.«129287_j45200235823192_1_alg».proof.Proof.Shared
import Idealize.ShloMosaic.Lib.Pipeline.Regions
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state, and that it
    owes nothing. -/
abbrev Rst (c : Dev nD) : sProp 𝕄 := iprop((∃ r, prngReg c r) ∗ ∃ W, owes (c : Thread nD τ) (0 : CellTallies nD τ sig Unit) W)
/-- The same rest between every two items. -/
abbrev Est : Fin 3 → Dev nD → sProp 𝕄 := fun _ c => Rst (F := F) c

/-! ## The valuations at the regions' results -/

theorem V1_v0_0 (c : Dev nD) : Gen.V1 m (outs m) c main_v0_0 = (dat0 (Ve0 m) c).arrAt 3 cfg0.N := by
  unfold Gen.V1
  rw [Function.update_of_ne (StableHlo.devRef_ne_of_ne (by decide) : (Proc.devRef .tc main_v0_0 : DevRef τ sig) ≠ Proc.devRef .tc main_v0_1),
    Function.update_self]
  rfl
theorem V1_v0_1 (c : Dev nD) : Gen.V1 m (outs m) c main_v0_1 = (dat0 (Ve0 m) c).arrAt 4 cfg0.N := by
  unfold Gen.V1
  rw [Function.update_self]
  rfl
theorem V1_rest (c : Dev nD) (b : Ref sig .tc) (h0 : b ≠ main_v0_0) (h1 : b ≠ main_v0_1) :
    Gen.V1 m (outs m) c b = Gen.V0 m c b :=
  Gen.V1_of m (outs m) c b fun hmem => by
    rcases List.mem_cons.mp hmem with e | hmem
    · exact h0 e
    rcases List.mem_cons.mp hmem with e | hmem
    · exact h1 e
    exact absurd hmem List.not_mem_nil
theorem V3_v5 (c : Dev nD) : Gen.V3 m (outs m) c main_v5 = (dat1 (Ve2 m) c).arrAt 4 cfg1.N := by
  unfold Gen.V3
  rw [Function.update_self]
  rfl
theorem V3_rest (c : Dev nD) (b : Ref sig .tc) (h : b ≠ main_v5) : Gen.V3 m (outs m) c b = Gen.V2 m (outs1 m) c b :=
  (Gen.V3_of m (outs m) c b fun hmem => by
    rcases List.mem_cons.mp hmem with e | hmem
    · exact h e
    exact absurd hmem List.not_mem_nil).trans (congrFun (V2_outs m c) _)

-- a library lemma stated over the pinned configuration unifies with the printed one only when unification may unfold
-- plain definitions in a metavariable's type
set_option backward.isDefEq.respectTransparency.types false in
/-- Region 0, entered from the launch memory and left with its two sums in place. -/
def reg0 (hb : ∀ c : Dev nD, Pipeline.BodyObligation (dat0 (F := F) (Ve0 m) c) (defs₀ (F := F)) Variants.none () Set.univ) :
    RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V0 m c) ∗ Rst c)
  post c := iprop(StableHlo.held (c : Thread nD τ) (Pipeline.ucRefs τ sig) (Gen.V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := bufs_entry0 (Ve0 m) c
    rw [Pipeline.unscopedBufs_held c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_exit0 (Ve0 m) c (fun b => Gen.V1 m (outs m) c b) (V1_v0_0 m c) (V1_v0_1 m c) (V1_rest m c)
    rw [Pipeline.unscopedBufs_held c] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1, entered from the host's quotient in place and left with its sum in place. -/
def reg1 (hb : ∀ c : Dev nD, Pipeline.BodyObligation (dat1 (F := F) (Ve2 m) c) (defs₀ (F := F)) Variants.none () Set.univ) :
    RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V2 m (outs1 m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := bufs_entry1 (Ve2 m) c
    rw [Pipeline.unscopedBufs_held c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_exit1 (Ve2 m) c (fun b => Gen.V3 m (outs m) c b) (V3_v5 m c) (V3_rest m c)
    rw [Pipeline.unscopedBufs_held c] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

end Cert.KernelIdeal.Hand

end
-- ==== Proof.Body0.lean ====
/-
  Region 0's kernel body meets its proof data at every grid point.

  The body reads its three input blocks whole, and keeps two running sums in single cells.  At the first grid
  point it stores zero into each cell before reading it back; at every point it adds the point's contribution
  to what the cell holds.  So at the first point a cell ends at one step of the fold from zero, whatever it held
  before, and at a later point at one step from what the point before left there: the cells are not written
  back between two points, the write-back being at the last point only.
-/
import proofs.«129287_j45200235823192_1_alg».proof.Proof.Data
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## When the body resets its cells -/

/-- The condition of the body's one branch, from the grid coordinates: both coordinates are zero. -/
abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point of the grid and at no other: decided over the 64 points. -/
theorem hcond0 : ∀ t : Fin cfg0.N, cond0 (grid0.coords t) ↔ t.val = 0 :=
  (by decide +kernel : ∀ t : Fin grid0.N, cond0 (grid0.coords t) ↔ t.val = 0)

/-! ## The body on any whole staging buffers -/

/-- The offsets of a whole-buffer load or store of a rank-2 buffer are zero on both axes. -/
theorem zeros2 : (![0, 0] : Fin 2 → ℕ) = fun _ => 0 := by funext a; fin_cases a <;> rfl

set_option maxHeartbeats 1000000 in
/-- AT THE FIRST POINT (the branch taken): whatever the two cells held, the body stores zero into each, reads it
    back and stores the point's contribution added to it; the three input buffers are read and left as they were.
    Each cell is stored twice through its whole rectangle, so it ends at the later store's payload, in which the
    value read back between the stores is the zero the earlier one left. -/
theorem run0_first (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : cond0 i)
    (x0 x1 : Vec F S512x64 .f32) (x2 : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (step0_3 i x0 x1 x2 (k0_pay4 (F := F)))
            ∗ owns (c : Thread nD τ) arg6 fullShare (step0_4 i x0 x1 x2 (k0_pay5 (F := F)))) -∗ K ⟨⟩))
      ⊢ wp frame (wpE (defs₀ (F := F)) Variants.none c none) E (cc0__stage1_kernel i arg2 harg2 arg3 harg3 arg4 harg4 arg5 harg5 arg6 harg6) K := by
  simp only [cc0__stage1_kernel_eq_skeleton]; unfold cc0__stage1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => ⟨_, List.mem_cons_self, View.mem_set_unit_zero (S := S1x1) zeros2 inb_S1x1_S1x1_0_0 y⟩)]
    dsimp only
    sl_unfold_words
    rw [View.canon_cons_unit_zero (S := S1x1) zeros2]
    simp only [View.readAt_eq_ld, harg2.read_unread, harg3.read_unread, harg4.read_unread,
      View.ld_unit_zero (S := S512x64) zeros2, View.ld_unit_zero (S := S512x512) zeros2, View.readCov_unit_zero (S := S1x1) _ zeros2]
    rfl
  · iexists _; isplitr
    swap; · iexact H4
    ipureintro
    rw [View.read_writes_eq_canon _ _ _ (fun y => ⟨_, List.mem_cons_self, View.mem_set_unit_zero (S := S1x1) zeros2 inb_S1x1_S1x1_0_0 y⟩)]
    dsimp only
    sl_unfold_words
    rw [View.canon_cons_unit_zero (S := S1x1) zeros2]
    simp only [View.readAt_eq_ld, harg2.read_unread, harg3.read_unread, harg4.read_unread,
      View.ld_unit_zero (S := S512x64) zeros2, View.ld_unit_zero (S := S512x512) zeros2, View.readCov_unit_zero (S := S1x1) _ zeros2]
    rfl

set_option maxHeartbeats 1000000 in
/-- AT A LATER POINT (the branch not taken): the cells hold `p3`, `p4`; the body reads each and stores the point's
    contribution added to it; the three input buffers are read and left as they were. -/
theorem run0_later (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : ¬cond0 i)
    (x0 x1 : Vec F S512x64 .f32) (x2 : Vec F S512x512 .f32) (p3 p4 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare p3 ∗ owns (c : Thread nD τ) arg6 fullShare p4
        ∗ (iprop(owns (c : Thread nD τ) arg2 fullShare x0 ∗ owns (c : Thread nD τ) arg3 fullShare x1 ∗ owns (c : Thread nD τ) arg4 fullShare x2
            ∗ owns (c : Thread nD τ) arg5 fullShare (step0_3 i x0 x1 x2 p3) ∗ owns (c : Thread nD τ) arg6 fullShare (step0_4 i x0 x1 x2 p4)) -∗ K ⟨⟩))
      ⊢ wp frame (wpE (defs₀ (F := F)) Variants.none c none) E (cc0__stage1_kernel i arg2 harg2 arg3 harg3 arg4 harg4 arg5 harg5 arg6 harg6) K := by
  simp only [cc0__stage1_kernel_eq_skeleton]; unfold cc0__stage1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => ⟨_, List.mem_singleton_self _, View.mem_set_unit_zero (S := S1x1) zeros2 inb_S1x1_S1x1_0_0 y⟩)]
    dsimp only
    sl_unfold_words
    rw [View.canon_unit_zero (S := S1x1) zeros2]
    simp only [View.readAt_eq_ld, harg2.read_unread, harg3.read_unread, harg4.read_unread, harg5.read_unread,
      View.ld_unit_zero (S := S512x64) zeros2, View.ld_unit_zero (S := S512x512) zeros2, View.ld_unit_zero (S := S1x1) zeros2]
    rfl
  · iexists _; isplitr
    swap; · iexact H4
    ipureintro
    rw [View.read_writes_eq_canon _ _ _ (fun y => ⟨_, List.mem_singleton_self _, View.mem_set_unit_zero (S := S1x1) zeros2 inb_S1x1_S1x1_0_0 y⟩)]
    dsimp only
    sl_unfold_words
    rw [View.canon_unit_zero (S := S1x1) zeros2]
    simp only [View.readAt_eq_ld, harg2.read_unread, harg3.read_unread, harg4.read_unread, harg6.read_unread,
      View.ld_unit_zero (S := S512x64) zeros2, View.ld_unit_zero (S := S512x512) zeros2, View.ld_unit_zero (S := S1x1) zeros2]
    rfl

/-! ## The proof data, window by window -/

variable (V : (c : Dev nD) → (b : Ref sig .tc) → Buf (Elt F) ((c : Thread nD τ).loc b))

/-- The arrays of the proof data are the contents the region finds. -/
theorem A0_eq (c : Dev nD) (w : Fin cfg0.W) : (dat0 V c).A w = V c (Pipeline.arrRef spec0 w) := by
  dsimp only [dat0]

/-- What the body leaves in each window's buffer, as the proof data names it. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0_3 V c t.val := by dsimp only [dat0]
theorem after0_4 (c : Dev nD) (t : Fin cfg0.N) : (dat0 V c).after 4 t = acc0_4 V c t.val := by dsimp only [dat0]

/-! ## What the buffers hold when the body runs -/

/-- An input's buffer holds its block at every point, fetched there or not: the body leaves the block in place,
    and at a point that does not fetch the window its block index has not moved.  Stated for any proof data over
    the region's arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d

/-- After the first point a cell's buffer holds what the body left at the point before: the buffer is written
    back at the last point only, so never between two points. -/
theorem before0_3_later (c : Dev nD) (t : Fin cfg0.N) (h0 : t.val ≠ 0) (d) :
    (dat0 V c).before 3 t d = acc0_3 V c (t.val - 1) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before0_4_later (c : Dev nD) (t : Fin cfg0.N) (h0 : t.val ≠ 0) (d) :
    (dat0 V c).before 4 t d = acc0_4 V c (t.val - 1) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-! ## The fold, one point at a time -/

/-- At the first point the fold is one step from the zero the body stores. -/
theorem acc0_3_first (c : Dev nD) (t : Fin cfg0.N) (h0 : t.val = 0) :
    acc0_3 V c t.val = step0_3 (grid0.coords t) (iblk0 V c 0 t) (iblk0 V c 1 t) (iblk0 V c 2 t) (k0_pay4 (F := F)) := by
  obtain ⟨n, hn⟩ := t
  dsimp only at h0
  subst h0
  rw [acc0_3]; exact dif_pos hn
theorem acc0_4_first (c : Dev nD) (t : Fin cfg0.N) (h0 : t.val = 0) :
    acc0_4 V c t.val = step0_4 (grid0.coords t) (iblk0 V c 0 t) (iblk0 V c 1 t) (iblk0 V c 2 t) (k0_pay5 (F := F)) := by
  obtain ⟨n, hn⟩ := t
  dsimp only at h0
  subst h0
  rw [acc0_4]; exact dif_pos hn

/-- At a later point it is one step from the fold at the point before. -/
theorem acc0_3_later (c : Dev nD) (t : Fin cfg0.N) (h0 : t.val ≠ 0) :
    acc0_3 V c t.val = step0_3 (grid0.coords t) (iblk0 V c 0 t) (iblk0 V c 1 t) (iblk0 V c 2 t) (acc0_3 V c (t.val - 1)) := by
  obtain ⟨n, hn⟩ := t
  cases n with
  | zero => exact absurd rfl h0
  | succ n =>
    show acc0_3 V c (n + 1) = step0_3 _ _ _ _ (acc0_3 V c n)
    rw [acc0_3]; exact dif_pos hn
theorem acc0_4_later (c : Dev nD) (t : Fin cfg0.N) (h0 : t.val ≠ 0) :
    acc0_4 V c t.val = step0_4 (grid0.coords t) (iblk0 V c 0 t) (iblk0 V c 1 t) (iblk0 V c 2 t) (acc0_4 V c (t.val - 1)) := by
  obtain ⟨n, hn⟩ := t
  cases n with
  | zero => exact absurd rfl h0
  | succ n =>
    show acc0_4 V c (n + 1) = step0_4 _ _ _ _ (acc0_4 V c n)
    rw [acc0_4]; exact dif_pos hn

/-! ## The body at a point of the grid -/

/-- Each window's current staging buffer at point `t`, as the pipeline hands it to the body, and that it is a whole buffer. -/
abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- What the body is called with at point `t`: the obligation's precondition, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point.  The inputs' buffers hold their blocks; the invariant and what the core owes pass
    through untouched.  At the first point the cells may hold anything and end one step from zero; at a later
    point they hold the fold at the point before and end one step further. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0 V, before0_1 V, before0_2 V]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_3_first V c t h0, acc0_4_first V c t h0]
    iintro ⟨HΦ, Ho, ⟨%d0, H0⟩, ⟨%d1, H1⟩, ⟨%d2, H2⟩, ⟨%d3, H3⟩, ⟨%d4, H4⟩⟩
    iapply (run0_first c (grid0.coords t) (ms0_0 t) (hs0_0 t) (ms0_1 t) (hs0_1 t) (ms0_2 t) (hs0_2 t) (ms0_3 t) (hs0_3 t) (ms0_4 t) (hs0_4 t)
      ((hcond0 t).mpr h0) (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_3_later V c t h0, acc0_4_later V c t h0]
    simp only [before0_3_later V c t h0, before0_4_later V c t h0]
    iintro ⟨HΦ, Ho, ⟨%d0, H0⟩, ⟨%d1, H1⟩, ⟨%d2, H2⟩, ⟨%d3, H3⟩, ⟨%d4, H4⟩⟩
    iapply (run0_later c (grid0.coords t) (ms0_0 t) (hs0_0 t) (ms0_1 t) (hs0_1 t) (ms0_2 t) (hs0_2 t) (ms0_3 t) (hs0_3 t) (ms0_4 t) (hs0_4 t)
      (fun h => h0 ((hcond0 t).mp h)) (iblk0 V c 0 t) (iblk0 V c 1 t) (iblk0 V c 2 t) (acc0_3 V c (t.val - 1)) (acc0_4 V c (t.val - 1)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 0, at every point: from the invariant, the core owing nothing and
    every window's current staging buffer at what the point finds there, the body runs to the same with every
    buffer at what the proof data says the body leaves. -/
theorem body_obligation0 (c : Dev nD) :
    BodyObligation (dat0 (F := F) V c) (defs₀ (F := F)) Variants.none () Set.univ := fun t => by
  rw [bigSep_W0, bigSep_W0]
  exact sound_body V c t

end Cert.KernelIdeal.Hand

end
-- ==== Proof.Body1.lean ====
/-
  Region 1's kernel body meets its proof data at every grid point.

  The region walks the 8 × 8 grid of tiles.  At a point the body reads the tile's rows and columns of the points
  table, the tile of target distances and the scale, and adds the tile's sum of squared relative distortions to the
  one output cell; at the first point it first stores zero there.  The cell is written back only after the last
  point, so between points it keeps what the body left: after point `t` it holds the fold `acc1_4` of the step
  function up to `t`.
-/
import proofs.«129287_j45200235823192_1_alg».proof.Proof.Data
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the proof data says of each window -/

/-- The proof data's arrays are the contents the region is entered with. -/
theorem A_eq1 (c : Dev nD) (w : Fin cfg1.W) : (dat1 V c).A w = V c (Pipeline.arrRef spec1 w) := by
  dsimp only [dat1]

/-- After the body an input's buffer holds its block, and the output's the fold up to the point. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1_4 V c t.val := by dsimp only [dat1]

/-! ## What each buffer holds when the body starts

An input's buffer holds the window's block at the point whether or not the point fetched it: a point that does not
fetch has the block index of the point before, and the body left that block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The grid has 64 points. -/
theorem N1_eq : cfg1.N = 64 := N_1

/-- At the first point the output's buffer is fresh: it holds anything. -/
theorem before1_4_first (c : Dev nD) (t : Fin cfg1.N) (h0 : t.val = 0) (d) : (dat1 V c).before 4 t d = d :=
  (dat1 V c).before_out_reset 4 rfl t (.inl h0) d

/-- At a later point it holds the fold up to the point before: the buffer is written back only after the last
    point, so nothing touched it in between. -/
theorem before1_4_later (c : Dev nD) (t : Fin cfg1.N) (h0 : t.val ≠ 0) (d) :
    (dat1 V c).before 4 t d = acc1_4 V c (t.val - 1) := by
  have hN : t.val < 64 := lt_of_lt_of_eq t.isLt N1_eq
  rw [Dat.before_out_kept _ 4 rfl t h0
    (Bool.eq_false_iff.mpr fun h => by have := (flush1_4 _).mp h; dsimp only at this; omega)
    (fun _ => rfl) (fun _ _ => rfl)]
  dsimp only [dat1]

/-! ## The fold, one step at a time -/

/-- At the first point the cell ends at one step from the zero the body stores. -/
theorem acc1_4_first (c : Dev nD) (t : Fin cfg1.N) (h0 : t.val = 0) :
    acc1_4 V c t.val = step1_4 (grid1.coords t) (iblk1 V c 0 t) (iblk1 V c 1 t) (iblk1 V c 2 t) (iblk1 V c 3 t) (k1_pay2 (F := F)) := by
  obtain ⟨n, hn⟩ := t
  cases n with
  | zero => rw [acc1_4, dif_pos hn]
  | succ n => exact absurd h0 (Nat.succ_ne_zero n)

/-- At a later point it ends at one step from what the point before left. -/
theorem acc1_4_later (c : Dev nD) (t : Fin cfg1.N) (h0 : t.val ≠ 0) :
    acc1_4 V c t.val = step1_4 (grid1.coords t) (iblk1 V c 0 t) (iblk1 V c 1 t) (iblk1 V c 2 t) (iblk1 V c 3 t) (acc1_4 V c (t.val - 1)) := by
  obtain ⟨n, hn⟩ := t
  cases n with
  | zero => exact absurd rfl h0
  | succ n => rw [acc1_4, dif_pos hn]; rfl

/-! ## The body's branch -/

/-- The condition under which the body stores the zero, from the grid coordinates: both are zero. -/
abbrev cond1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only: decided over the grid. -/
theorem hcond1 : ∀ t : Fin cfg1.N, cond1 (grid1.coords t) ↔ t.val = 0 :=
  (by decide +kernel : ∀ t : Fin grid1.N, cond1 (grid1.coords t) ↔ t.val = 0)

/-! ## The body on any whole staging buffers -/

/-- The zero offsets of the body's whole-buffer loads and stores, as a function. -/
private theorem hz2 : (![0, 0] : Fin 2 → Nat) = fun _ => 0 := funext fun a => by fin_cases a <;> rfl

set_option maxHeartbeats 1000000 in
/-- The body at a point AFTER the first, on whole staging buffers: the inputs' at any contents, the output's at
    what it held.  The branch is not taken; the body loads the five buffers and stores the step of what the output
    held, so the output's one covering store leaves exactly `step1_4`. -/
theorem kernel1_later (c : Dev nD) (E : Set ℕ) (i : grid1.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : ¬cond1 i)
    (x0 x1 : Vec F S512x64 .f32) (x2 : Vec F S512x512 .f32) (x3 prev : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare prev
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (step1_4 i x0 x1 x2 x3 prev)) -∗ K ⟨⟩))
      ⊢ wp frame (wpE (defs₀ (F := F)) Variants.none c none) E (cc1__stage2_kernel i arg2 harg2 arg3 harg3 arg4 harg4 arg5 harg5 arg6 harg6) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero (S := S1x1) hz2 inb_S1x1_S1x1_0_0 y⟩)]
  rw [View.canon_unit_zero (S := S1x1) hz2]
  sl_unfold_words
  simp only [View.readAt_eq_ld, harg2.read_unread, harg3.read_unread, harg4.read_unread, harg5.read_unread, harg6.read_unread,
    View.ld_unit_zero (S := S512x64) hz2, View.ld_unit_zero (S := S512x512) hz2, View.ld_unit_zero (S := S1x1) hz2]
  rfl

set_option maxHeartbeats 1000000 in
/-- The body at the FIRST point, on whole staging buffers: the inputs' at any contents, the output's at anything.
    The branch is taken: the body stores zero into the output, reads it back, and stores the step of it; the last
    store covers the cell, and the load in between reads the zero just stored. -/
theorem kernel1_first (c : Dev nD) (E : Set ℕ) (i : grid1.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : cond1 i)
    (x0 x1 : Vec F S512x64 .f32) (x2 : Vec F S512x512 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (step1_4 i x0 x1 x2 x3 (k1_pay2 (F := F)))) -∗ K ⟨⟩))
      ⊢ wp frame (wpE (defs₀ (F := F)) Variants.none c none) E (cc1__stage2_kernel i arg2 harg2 arg3 harg3 arg4 harg4 arg5 harg5 arg6 harg6) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  simp only [View.readAt_eq_ld, harg2.read_unread, harg3.read_unread, harg4.read_unread, harg5.read_unread,
    View.ld_unit_zero (S := S512x64) hz2, View.ld_unit_zero (S := S512x512) hz2, View.ld_unit_zero (S := S1x1) hz2,
    View.readCov_unit_zero (S := S1x1) _ hz2]
  rfl

/-! ## The body obligation, at a generic point -/

/-- What the body is called with at point `t`: the invariant, the core owing nothing, and each window's current
    staging buffer at what the point finds there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point.  The inputs' buffers hold their blocks.  At the first point the branch is taken and the
    output's buffer, holding anything, ends at one step from zero; at a later point the branch is not taken and the
    buffer, holding the fold up to the point before, ends at one step from that: in both cases the fold up to this
    point.  The invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [acc1_4_first V c t h0]
    simp only [before1_4_first V c t h0]
    iintro ⟨HΦ, Ho, ⟨%d0, H0⟩, ⟨%d1, H1⟩, ⟨%d2, H2⟩, ⟨%d3, H3⟩, ⟨%d4, H4⟩⟩
    iapply (kernel1_first c Set.univ (grid1.coords t) _ _ _ _ _ _ _ _ _ _ ((hcond1 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_4_later V c t h0]
    simp only [before1_4_later V c t h0]
    iintro ⟨HΦ, Ho, ⟨%d0, H0⟩, ⟨%d1, H1⟩, ⟨%d2, H2⟩, ⟨%d3, H3⟩, ⟨%d4, H4⟩⟩
    iapply (kernel1_later c Set.univ (grid1.coords t) _ _ _ _ _ _ _ _ _ _ (fun h => h0 ((hcond1 t).mp h))
      (iblk1 V c 0 t) (iblk1 V c 1 t) (iblk1 V c 2 t) (iblk1 V c 3 t) (acc1_4 V c (t.val - 1)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point: from the invariant, the core owing nothing and
    every window's current staging buffer at what the point finds there, the body runs to the same with every
    buffer at what the proof data says the body leaves. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KernelRun.lean ====
/-
  The kernel's program runs: every weakly fair execution ends, nothing faulting, with every buffer that outlives the
  regions at the last valuation — the launch over the four items (region, host stretch, region, host stretch).
-/
import proofs.«129287_j45200235823192_1_alg».proof.Proof.Segs
import proofs.«129287_j45200235823192_1_alg».proof.Proof.Run
import proofs.«129287_j45200235823192_1_alg».proof.Proof.Body0
import proofs.«129287_j45200235823192_1_alg».proof.Proof.Body1

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch deals a core makes the rest that rides beside its buffers. -/
theorem rest_init (c : Dev nD) :
    (iprop(unscopedSems0 c ∗ owes (c : Thread nD τ) (0 : CellTallies nD τ sig Unit) ∅ ∗ Pipeline.launchCred (fun _ : Dev nD => (0 : CellTallies nD τ sig Unit)) c
        ∗ prngReg c (ρ c) ∗ (BI.emp : sProp 𝕄)) : sProp 𝕄) ⊢ Rst (F := F) c := by
  iintro ⟨-, HO, -, Hp, -⟩
  isplitl [Hp]; · iexists _; iexact Hp
  iexists ∅; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: every weakly fair execution of @main from memory `m` with zero counters terminates,
    and every final memory holds each buffer that outlives the regions at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) :=
  Gen.run_cond m emb₁ () 𝒱₀ L lv (fun _ _ => rfl) ρ (outs m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Est)
    (hE0 := by
      have hmono : (bigSep Finset.univ (fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ (BI.emp : sProp 𝕄))) : sProp 𝕄)
          ⊢ bigSep Finset.univ (Rst (F := F)) := bigSep_mono fun c _ => rest_init (F := F) ρ c
      iintro ⟨H, -⟩
      imodintro
      iapply hmono
      iexact H)
    (hE2 := fun c => by iintro ⟨-, HO⟩; iexact HO)
    (reg0 m (body_obligation0 (Ve0 m))) (fun c => .rfl) (fun c => .rfl)
    (reg1 m (body_obligation1 (Ve2 m))) (fun c => .rfl) (fun c => .rfl)

end Cert.KernelIdeal.Hand

end
-- ==== Proof.DataK.lean ====
/-
  What the two kernel regions hold, point by point.

  Both regions walk an 8 × 8 grid of 512 × 512 tiles of the pair table.  At a point they read a block of 512
  rows of the points table twice (the tile's rows and its columns) and the matching tile of the target
  distances; region 1 also reads the scale.  Their outputs are single cells that are reset at the first point and
  added to at every point, and written back once, after the last point: so what an output cell holds after
  point `n` is a fold over the points up to `n` of one step function, which is the kernel body's arithmetic.
-/
import proofs.«129287_j45200235823192_1_alg».proof.Proof.Gen.Kernel.Skeleton
import proofs.«129287_j45200235823192_1_alg».proof.Proof.Gen.Kernel.Points
import proofs.«129287_j45200235823192_1_alg».proof.Proof.Gen.Kernel.Launch
import Idealize.ShloMosaic.Lib.Pipeline.Frame
import Idealize.ShloMosaic.Lib.Pipeline.FrameBody

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]

-- the core's buffer contents when a region is entered
variable (V : (c : Dev nD) → (b : Ref sig .tc) → Buf (Elt F) ((c : Thread nD τ).loc b))

/-! ## Region 0: the two sums behind the scale -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first column of the tile at grid point `i`, as the body computes it. -/
def col0 (i : grid0.Coords) : BitVec 32 := Scalar.muli (BitVec.ofNat 32 (i 1).val) 512#32

/-- One point's update of the first output cell (the sum of the quotients): the body's arithmetic on the point's
    three blocks and on what the cell held. -/
def step0_3 (i : grid0.Coords) (x0 x1 : Vec F S512x64 .f32) (x2 : Vec F S512x512 .f32) (prev : Vec F S1x1 .f32) : Vec F S1x1 .f32 :=
  k0_pay2 (k0_pay6 x0 x1) (k0_pay7 i) (col0 i) x2 prev
/-- One point's update of the second output cell (the sum of the squared quotients). -/
def step0_4 (i : grid0.Coords) (x0 x1 : Vec F S512x64 .f32) (x2 : Vec F S512x512 .f32) (prev : Vec F S1x1 .f32) : Vec F S1x1 .f32 :=
  k0_pay3 (k0_pay6 x0 x1) (k0_pay7 i) (col0 i) x2 prev

/-- The first output cell after point `n`: the zero the first point stores, then one step per point. -/
def acc0_3 (c : Dev nD) : ℕ → Vec F S1x1 .f32
  | 0 => if h : 0 < cfg0.N then
      step0_3 (grid0.coords ⟨0, h⟩) (iblk0 V c 0 ⟨0, h⟩) (iblk0 V c 1 ⟨0, h⟩) (iblk0 V c 2 ⟨0, h⟩) (k0_pay4 (F := F))
    else k0_pay4 (F := F)
  | n + 1 => if h : n + 1 < cfg0.N then
      step0_3 (grid0.coords ⟨n + 1, h⟩) (iblk0 V c 0 ⟨n + 1, h⟩) (iblk0 V c 1 ⟨n + 1, h⟩) (iblk0 V c 2 ⟨n + 1, h⟩) (acc0_3 c n)
    else acc0_3 c n
/-- The second output cell after point `n`. -/
def acc0_4 (c : Dev nD) : ℕ → Vec F S1x1 .f32
  | 0 => if h : 0 < cfg0.N then
      step0_4 (grid0.coords ⟨0, h⟩) (iblk0 V c 0 ⟨0, h⟩) (iblk0 V c 1 ⟨0, h⟩) (iblk0 V c 2 ⟨0, h⟩) (k0_pay5 (F := F))
    else k0_pay5 (F := F)
  | n + 1 => if h : n + 1 < cfg0.N then
      step0_4 (grid0.coords ⟨n + 1, h⟩) (iblk0 V c 0 ⟨n + 1, h⟩) (iblk0 V c 1 ⟨n + 1, h⟩) (iblk0 V c 2 ⟨n + 1, h⟩) (acc0_4 c n)
    else acc0_4 c n

/-- Region 0's proof data on core `c`: the arrays as the region finds them; after the body each input's buffer at
    its block and each output's at the fold; the points table, read through two windows, held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0_3 V c t.val
    | ⟨4, _⟩ => acc0_4 V c t.val
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-! ## Region 1: the sum of the squared distortions -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first column of the tile at grid point `i`. -/
def col1 (i : grid1.Coords) : BitVec 32 := Scalar.muli (BitVec.ofNat 32 (i 1).val) 512#32

/-- One point's update of the output cell: the body's arithmetic on the point's three blocks, the scale and what
    the cell held. -/
def step1_4 (i : grid1.Coords) (x0 x1 : Vec F S512x64 .f32) (x2 : Vec F S512x512 .f32) (x3 prev : Vec F S1x1 .f32) : Vec F S1x1 .f32 :=
  k1_pay1 (k1_pay3 x0 x1) (k1_pay4 i) (col1 i) x2 x3 prev

/-- The output cell after point `n`. -/
def acc1_4 (c : Dev nD) : ℕ → Vec F S1x1 .f32
  | 0 => if h : 0 < cfg1.N then
      step1_4 (grid1.coords ⟨0, h⟩) (iblk1 V c 0 ⟨0, h⟩) (iblk1 V c 1 ⟨0, h⟩) (iblk1 V c 2 ⟨0, h⟩) (iblk1 V c 3 ⟨0, h⟩) (k1_pay2 (F := F))
    else k1_pay2 (F := F)
  | n + 1 => if h : n + 1 < cfg1.N then
      step1_4 (grid1.coords ⟨n + 1, h⟩) (iblk1 V c 0 ⟨n + 1, h⟩) (iblk1 V c 1 ⟨n + 1, h⟩) (iblk1 V c 2 ⟨n + 1, h⟩) (iblk1 V c 3 ⟨n + 1, h⟩) (acc1_4 c n)
    else acc1_4 c n

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1_4 V c t.val
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

end Cert.Kernel.Hand

end
-- ==== Proof.OutsK.lean ====
/-
  What the two regions leave behind, and the proof data of both at once.

  Region 0 is entered from the launch memory and leaves its two sums in `main_v0_0` and `main_v0_1`; the host
  then divides them and reshapes the quotient; region 1 is entered from that and leaves its sum in `main_v5`.
-/
import proofs.«129287_j45200235823192_1_alg».proof.Proof.DataK
import proofs.«129287_j45200235823192_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]
variable (m : (ℓ : Loc nD τ sig) → Buf (Elt F) ℓ)

/-- Region 0's entry contents: the launch memory. -/
abbrev Ve0 : (c : Dev nD) → (b : Ref sig .tc) → Buf (Elt F) ((c : Thread nD τ).loc b) := fun c b => Gen.V0 m c b

/-- What region 0 leaves in its two result arrays (every other entry: unread). -/
def outs1 : Gen.Outs (F := F) := fun _ r c =>
  if h : r = main_v0_0 then h ▸ ((dat0 (Ve0 m) c).arrAt 3 cfg0.N)
  else if h : r = main_v0_1 then h ▸ ((dat0 (Ve0 m) c).arrAt 4 cfg0.N)
  else m ((c : Thread nD τ).loc r)

/-- Region 1's entry contents: region 0's results in place, then the host's quotient and reshapes. -/
abbrev Ve2 : (c : Dev nD) → (b : Ref sig .tc) → Buf (Elt F) ((c : Thread nD τ).loc b) := fun c b => Gen.V2 m (outs1 m) c b

/-- What both regions leave. -/
def outs : Gen.Outs (F := F) := fun n r c =>
  if h : r = main_v5 then h ▸ ((dat1 (Ve2 m) c).arrAt 4 cfg1.N) else outs1 m n r c

theorem outs_v0_0 (c : Dev nD) : outs m 1 main_v0_0 c = (dat0 (Ve0 m) c).arrAt 3 cfg0.N := rfl
theorem outs_v0_1 (c : Dev nD) : outs m 1 main_v0_1 c = (dat0 (Ve0 m) c).arrAt 4 cfg0.N := rfl
theorem outs_v5 (c : Dev nD) : outs m 3 main_v5 c = (dat1 (Ve2 m) c).arrAt 4 cfg1.N := rfl
/-- Region 1 is entered from the same contents whichever of the two tables names them. -/
theorem V2_outs (c : Dev nD) : Gen.V2 m (outs m) c = Gen.V2 m (outs1 m) c := rfl

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve2 m) c

end Cert.Kernel.Hand

end
-- ==== Proof.SharedK.lean ====
/-
  The points table read through two windows: how a region's arrays are dealt out of the core's buffers at its
  entry and gathered back at its exit.

  A region holds each window's array at that window's share.  Windows 0 and 1 are both on the points table, so
  the table's buffer, held whole at the full share, is split into its left half (window 0) and its right half
  (window 1); every other window's array is a buffer of its own, held at the full share.  At the exit the two halves,
  both still at the entry contents (an input array is never written), join into the whole again.
-/
import proofs.«129287_j45200235823192_1_alg».proof.Proof.DataK
import Idealize.ShloMosaic.Lib.Pipeline.Kit
import Idealize.ShloMosaic.Lib.Pipeline.Launch

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer held whole at the full share is held at its two halves, and back. -/
theorem halves (c : Dev nD) (b : Ref sig .tc) (f : Buf (Elt F) ((c : Thread nD τ).loc b)) :
    ((((c : Thread nD τ).loc b) ↦{fullShare} f) : sProp 𝕄)
      ⊣⊢ iprop((((c : Thread nD τ).loc b) ↦{fullShare.left} f) ∗ (((c : Thread nD τ).loc b) ↦{fullShare.right} f)) :=
  pointsTo_share (PosShare.mem_left_op_right fullShare)

/-- Region 0's entry: the four buffers behind its five windows, each whole at the entry contents, are its arrays. -/
theorem arrays_entry0 (c : Dev nD) :
    (Pipeline.arrBufs (Ix := Unit) (Name := ℕ) (U := UR sig nD τ) (Lvl := ℕ) spec0 c (V c) : sProp 𝕄)
      ⊢ (dat0 V c).arrays (fun w => (dat0 V c).arrAt w 0) := by
  unfold Pipeline.arrBufs Dat.arrays
  rw [bigSep_eq_bigSepL_of_eq [main_arg0, main_arg1, main_v0_0, main_v0_1] (by decide) (by decide), Gen.bigSep_W0]
  rw [(arr_whole0 0).set_eq_univ, (arr_whole0 2).set_eq_univ, (arr_whole0 3).set_eq_univ,
    (arr_whole0 4).set_eq_univ,
    show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  show (iprop((((c : Thread nD τ).loc main_arg0) ↦{fullShare} V c main_arg0) ∗ (((c : Thread nD τ).loc main_arg1) ↦{fullShare} V c main_arg1) ∗ (((c : Thread nD τ).loc main_v0_0) ↦{fullShare} V c main_v0_0) ∗ (((c : Thread nD τ).loc main_v0_1) ↦{fullShare} V c main_v0_1)) : sProp 𝕄) ⊢ _
  iintro ⟨H0, H1, H2, H3⟩
  ihave Hh := (halves c main_arg0 (V c main_arg0)).1 $$ H0
  icases Hh with ⟨Hl, Hr⟩
  isplitl [Hl]; · iexact Hl
  isplitl [Hr]; · iexact Hr
  isplitl [H1]; · iexact H1
  isplitl [H2]; · iexact H2
  iexact H3

/-- Region 0's exit: its arrays — the inputs as entered, the two results at what the write-backs left — are the four
    buffers behind them, whole, at any contents `V'` that agree with those. -/
theorem arrays_exit0 (c : Dev nD) (V' : (b : Ref sig .tc) → Buf (Elt F) ((c : Thread nD τ).loc b))
    (h0 : V' main_arg0 = V c main_arg0) (h1 : V' main_arg1 = V c main_arg1)
    (h3 : V' main_v0_0 = (dat0 V c).arrAt 3 cfg0.N) (h4 : V' main_v0_1 = (dat0 V c).arrAt 4 cfg0.N) :
    (dat0 V c).arrays (fun w => (dat0 V c).arrAt w cfg0.N)
      ⊢ (Pipeline.arrBufs (Ix := Unit) (Name := ℕ) (U := UR sig nD τ) (Lvl := ℕ) spec0 c V' : sProp 𝕄) := by
  unfold Pipeline.arrBufs Dat.arrays
  rw [bigSep_eq_bigSepL_of_eq [main_arg0, main_arg1, main_v0_0, main_v0_1] (by decide) (by decide), Gen.bigSep_W0]
  rw [(arr_whole0 0).set_eq_univ, (arr_whole0 2).set_eq_univ, (arr_whole0 3).set_eq_univ,
    (arr_whole0 4).set_eq_univ,
    show (dat0 V c).share 0 = fullShare.left from rfl, show (dat0 V c).share 1 = fullShare.right from rfl,
    show (dat0 V c).share 2 = fullShare from rfl, show (dat0 V c).share 3 = fullShare from rfl,
    show (dat0 V c).share 4 = fullShare from rfl]
  show _ ⊢ (iprop((((c : Thread nD τ).loc main_arg0) ↦{fullShare} V' main_arg0) ∗ (((c : Thread nD τ).loc main_arg1) ↦{fullShare} V' main_arg1) ∗ (((c : Thread nD τ).loc main_v0_0) ↦{fullShare} V' main_v0_0) ∗ (((c : Thread nD τ).loc main_v0_1) ↦{fullShare} V' main_v0_1)) : sProp 𝕄)
  beta_reduce
  rw [h0, h1, h3, h4, (dat0 V c).arrAt_in 0 rfl cfg0.N, (dat0 V c).arrAt_in 1 rfl cfg0.N, (dat0 V c).arrAt_in 2 rfl cfg0.N]
  have hh := (halves (F := F) c main_arg0 (V c main_arg0)).2
  iintro ⟨Hl, Hr, Hb, Hc, Hd⟩
  isplitl [Hl Hr]
  · iapply hh
    isplitl [Hl]; · iexact Hl
    iexact Hr
  isplitl [Hb]; · iexact Hb
  isplitl [Hc]; · iexact Hc
  iexact Hd

/-- Region 1's entry: the four buffers behind its five windows, each whole at the entry contents, are its arrays. -/
theorem arrays_entry1 (c : Dev nD) :
    (Pipeline.arrBufs (Ix := Unit) (Name := ℕ) (U := UR sig nD τ) (Lvl := ℕ) spec1 c (V c) : sProp 𝕄)
      ⊢ (dat1 V c).arrays (fun w => (dat1 V c).arrAt w 0) := by
  unfold Pipeline.arrBufs Dat.arrays
  rw [bigSep_eq_bigSepL_of_eq [main_arg0, main_arg1, main_v4, main_v5] (by decide) (by decide), Gen.bigSep_W1]
  rw [(arr_whole1 0).set_eq_univ, (arr_whole1 2).set_eq_univ, (arr_whole1 3).set_eq_univ,
    (arr_whole1 4).set_eq_univ,
    show (dat1 V c).share 0 = fullShare.left from rfl, show (dat1 V c).share 1 = fullShare.right from rfl,
    show (dat1 V c).share 2 = fullShare from rfl, show (dat1 V c).share 3 = fullShare from rfl,
    show (dat1 V c).share 4 = fullShare from rfl]
  show (iprop((((c : Thread nD τ).loc main_arg0) ↦{fullShare} V c main_arg0) ∗ (((c : Thread nD τ).loc main_arg1) ↦{fullShare} V c main_arg1) ∗ (((c : Thread nD τ).loc main_v4) ↦{fullShare} V c main_v4) ∗ (((c : Thread nD τ).loc main_v5) ↦{fullShare} V c main_v5)) : sProp 𝕄) ⊢ _
  iintro ⟨H0, H1, H2, H3⟩
  ihave Hh := (halves c main_arg0 (V c main_arg0)).1 $$ H0
  icases Hh with ⟨Hl, Hr⟩
  isplitl [Hl]; · iexact Hl
  isplitl [Hr]; · iexact Hr
  isplitl [H1]; · iexact H1
  isplitl [H2]; · iexact H2
  iexact H3

/-- Region 1's exit: its arrays — the inputs as entered, the result at what the write-back left — are the four buffers
    behind them, whole, at any contents `V'` that agree with those. -/
theorem arrays_exit1 (c : Dev nD) (V' : (b : Ref sig .tc) → Buf (Elt F) ((c : Thread nD τ).loc b))
    (h0 : V' main_arg0 = V c main_arg0) (h1 : V' main_arg1 = V c main_arg1) (h3 : V' main_v4 = V c main_v4)
    (h4 : V' main_v5 = (dat1 V c).arrAt 4 cfg1.N) :
    (dat1 V c).arrays (fun w => (dat1 V c).arrAt w cfg1.N)
      ⊢ (Pipeline.arrBufs (Ix := Unit) (Name := ℕ) (U := UR sig nD τ) (Lvl := ℕ) spec1 c V' : sProp 𝕄) := by
  unfold Pipeline.arrBufs Dat.arrays
  rw [bigSep_eq_bigSepL_of_eq [main_arg0, main_arg1, main_v4, main_v5] (by decide) (by decide), Gen.bigSep_W1]
  rw [(arr_whole1 0).set_eq_univ, (arr_whole1 2).set_eq_univ, (arr_whole1 3).set_eq_univ,
    (arr_whole1 4).set_eq_univ,
    show (dat1 V c).share 0 = fullShare.left from rfl, show (dat1 V c).share 1 = fullShare.right from rfl,
    show (dat1 V c).share 2 = fullShare from rfl, show (dat1 V c).share 3 = fullShare from rfl,
    show (dat1 V c).share 4 = fullShare from rfl]
  show _ ⊢ (iprop((((c : Thread nD τ).loc main_arg0) ↦{fullShare} V' main_arg0) ∗ (((c : Thread nD τ).loc main_arg1) ↦{fullShare} V' main_arg1) ∗ (((c : Thread nD τ).loc main_v4) ↦{fullShare} V' main_v4) ∗ (((c : Thread nD τ).loc main_v5) ↦{fullShare} V' main_v5)) : sProp 𝕄)
  beta_reduce
  rw [h0, h1, h3, h4, (dat1 V c).arrAt_in 0 rfl cfg1.N, (dat1 V c).arrAt_in 1 rfl cfg1.N, (dat1 V c).arrAt_in 2 rfl cfg1.N,
    (dat1 V c).arrAt_in 3 rfl cfg1.N]
  have hh := (halves (F := F) c main_arg0 (V c main_arg0)).2
  iintro ⟨Hl, Hr, Hb, Hc, Hd⟩
  isplitl [Hl Hr]
  · iapply hh
    isplitl [Hl]; · iexact Hl
    iexact Hr
  isplitl [Hb]; · iexact Hb
  isplitl [Hc]; · iexact Hc
  iexact Hd

/-! ## All of a core's buffers that outlive a region, against a region's arrays and the rest -/

/-- Entry of region 0 from all the core's unscoped buffers. -/
theorem bufs_entry0 (c : Dev nD) :
    (unscopedBufs (Ix := Unit) (Name := ℕ) (U := UR sig nD τ) (Lvl := ℕ) c (V c) : sProp 𝕄)
      ⊢ iprop((dat0 V c).arrays (fun w => (dat0 V c).arrAt w 0)
          ∗ Pipeline.unscopedRest (Ix := Unit) (Name := ℕ) (U := UR sig nD τ) (Lvl := ℕ) spec0 c (V c)) := by
  rw [Pipeline.unscopedBufs_split₀ (Ix := Unit) (Name := ℕ) (U := UR sig nD τ) (Lvl := ℕ) cfgs 0 winFacts₀0.arr_unscoped c (V c)]
  exact sep_mono (arrays_entry0 V c) .rfl

/-- Exit of region 0 to all the core's unscoped buffers at contents `V'`: the results at what the write-backs left,
    everything else as entered. -/
theorem bufs_exit0 (c : Dev nD) (V' : (b : Ref sig .tc) → Buf (Elt F) ((c : Thread nD τ).loc b))
    (h3 : V' main_v0_0 = (dat0 V c).arrAt 3 cfg0.N) (h4 : V' main_v0_1 = (dat0 V c).arrAt 4 cfg0.N)
    (hrest : ∀ b : Ref sig .tc, b ≠ main_v0_0 → b ≠ main_v0_1 → V' b = V c b) :
    iprop((dat0 V c).arrays (fun w => (dat0 V c).arrAt w cfg0.N)
          ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 0 winFacts₀0.arr_unscoped c V']
  refine sep_mono (arrays_exit0 V c V' (hrest _ (by decide) (by decide)) (hrest _ (by decide) (by decide)) h3 h4) (Entails.of_eq ?_)
  unfold Pipeline.unscopedRest
  exact bigSep_congr fun b hb => by
    have hb' := (Finset.mem_sdiff.mp hb).2
    rw [hrest b (fun e => hb' (e ▸ Finset.mem_image.mpr ⟨3, Finset.mem_univ _, rfl⟩))
      (fun e => hb' (e ▸ Finset.mem_image.mpr ⟨4, Finset.mem_univ _, rfl⟩))]

/-- Entry of region 1 from all the core's unscoped buffers. -/
theorem bufs_entry1 (c : Dev nD) :
    (unscopedBufs (Ix := Unit) (Name := ℕ) (U := UR sig nD τ) (Lvl := ℕ) c (V c) : sProp 𝕄)
      ⊢ iprop((dat1 V c).arrays (fun w => (dat1 V c).arrAt w 0)
          ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  exact sep_mono (arrays_entry1 V c) .rfl

/-- Exit of region 1 to all the core's unscoped buffers at contents `V'`. -/
theorem bufs_exit1 (c : Dev nD) (V' : (b : Ref sig .tc) → Buf (Elt F) ((c : Thread nD τ).loc b))
    (h4 : V' main_v5 = (dat1 V c).arrAt 4 cfg1.N)
    (hrest : ∀ b : Ref sig .tc, b ≠ main_v5 → V' b = V c b) :
    iprop((dat1 V c).arrays (fun w => (dat1 V c).arrAt w cfg1.N)
          ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [Pipeline.unscopedBufs_split₀ (Ix := Unit) (Name := ℕ) (U := UR sig nD τ) (Lvl := ℕ) cfgs 1 winFacts₀1.arr_unscoped c V']
  refine sep_mono (arrays_exit1 V c V' (hrest _ (by decide)) (hrest _ (by decide)) (hrest _ (by decide)) h4) (Entails.of_eq ?_)
  unfold Pipeline.unscopedRest
  exact bigSep_congr fun b hb => by
    have hb' := (Finset.mem_sdiff.mp hb).2
    rw [hrest b (fun e => hb' (e ▸ Finset.mem_image.mpr ⟨4, Finset.mem_univ _, rfl⟩))]

end Cert.Kernel.Hand

end
-- ==== Proof.SegsK.lean ====
/-
  The two kernel regions as segments of the program's run.

  Between two items a core holds every buffer that outlives a region, whole, at the contents the valuations name,
  beside its random-number register and the fact that it owes no one anything.  A region takes its arrays out of
  those buffers at entry (the points table split between the two windows that read it), runs its pipeline, and puts
  them back at exit with its results at what the write-backs left.
-/
import proofs.«129287_j45200235823192_1_alg».proof.Proof.OutsK
import proofs.«129287_j45200235823192_1_alg».proof.Proof.SharedK
import Idealize.ShloMosaic.Lib.Pipeline.Regions
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's random-number register at some state, and that it
    owes nothing. -/
abbrev Rst (c : Dev nD) : sProp 𝕄 := iprop((∃ r, prngReg c r) ∗ ∃ W, owes (c : Thread nD τ) (0 : CellTallies nD τ sig Unit) W)
/-- The same rest between every two items. -/
abbrev Est : Fin 3 → Dev nD → sProp 𝕄 := fun _ c => Rst (F := F) c

/-! ## The valuations at the regions' results -/

theorem V1_v0_0 (c : Dev nD) : Gen.V1 m (outs m) c main_v0_0 = (dat0 (Ve0 m) c).arrAt 3 cfg0.N := by
  unfold Gen.V1
  rw [Function.update_of_ne (StableHlo.devRef_ne_of_ne (by decide) : (Proc.devRef .tc main_v0_0 : DevRef τ sig) ≠ Proc.devRef .tc main_v0_1),
    Function.update_self]
  rfl
theorem V1_v0_1 (c : Dev nD) : Gen.V1 m (outs m) c main_v0_1 = (dat0 (Ve0 m) c).arrAt 4 cfg0.N := by
  unfold Gen.V1
  rw [Function.update_self]
  rfl
theorem V1_rest (c : Dev nD) (b : Ref sig .tc) (h0 : b ≠ main_v0_0) (h1 : b ≠ main_v0_1) :
    Gen.V1 m (outs m) c b = Gen.V0 m c b :=
  Gen.V1_of m (outs m) c b fun hmem => by
    rcases List.mem_cons.mp hmem with e | hmem
    · exact h0 e
    rcases List.mem_cons.mp hmem with e | hmem
    · exact h1 e
    exact absurd hmem List.not_mem_nil
theorem V3_v5 (c : Dev nD) : Gen.V3 m (outs m) c main_v5 = (dat1 (Ve2 m) c).arrAt 4 cfg1.N := by
  unfold Gen.V3
  rw [Function.update_self]
  rfl
theorem V3_rest (c : Dev nD) (b : Ref sig .tc) (h : b ≠ main_v5) : Gen.V3 m (outs m) c b = Gen.V2 m (outs1 m) c b :=
  (Gen.V3_of m (outs m) c b fun hmem => by
    rcases List.mem_cons.mp hmem with e | hmem
    · exact h e
    exact absurd hmem List.not_mem_nil).trans (congrFun (V2_outs m c) _)

-- a library lemma stated over the pinned configuration unifies with the printed one only when unification may unfold
-- plain definitions in a metavariable's type
set_option backward.isDefEq.respectTransparency.types false in
/-- Region 0, entered from the launch memory and left with its two sums in place. -/
def reg0 (hb : ∀ c : Dev nD, Pipeline.BodyObligation (dat0 (F := F) (Ve0 m) c) (defs₀ (F := F)) Variants.none () Set.univ) :
    RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V0 m c) ∗ Rst c)
  post c := iprop(StableHlo.held (c : Thread nD τ) (Pipeline.ucRefs τ sig) (Gen.V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := bufs_entry0 (Ve0 m) c
    rw [Pipeline.unscopedBufs_held c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := bufs_exit0 (Ve0 m) c (fun b => Gen.V1 m (outs m) c b) (V1_v0_0 m c) (V1_v0_1 m c) (V1_rest m c)
    rw [Pipeline.unscopedBufs_held c] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1, entered from the host's quotient in place and left with its sum in place. -/
def reg1 (hb : ∀ c : Dev nD, Pipeline.BodyObligation (dat1 (F := F) (Ve2 m) c) (defs₀ (F := F)) Variants.none () Set.univ) :
    RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V2 m (outs1 m) c) ∗ Rst c)
  post c := iprop(StableHlo.held (c : Thread nD τ) (Pipeline.ucRefs τ sig) (Gen.V3 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := bufs_entry1 (Ve2 m) c
    rw [Pipeline.unscopedBufs_held c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_exit1 (Ve2 m) c (fun b => Gen.V3 m (outs m) c b) (V3_v5 m c) (V3_rest m c)
    rw [Pipeline.unscopedBufs_held c] at hjoin
    iintro ⟨Ha, HO, HY, Hrest⟩
    imodintro
    isplitl [Ha Hrest]
    · iapply hjoin
      isplitl [Ha]
      · iexact Ha
      iexact Hrest
    isplitl [HY]; · iexact HY
    unfold Pipeline.Dat.owesAt Pipeline.owesWithin
    icases HO with ⟨%W, -, HO⟩; iexists W; iexact HO

end Cert.Kernel.Hand

end
-- ==== Proof.Body0K.lean ====
/-
  Region 0's kernel body meets its proof data at every grid point.

  The body reads its three input blocks whole, and keeps two running sums in single cells.  At the first grid
  point it stores zero into each cell before reading it back; at every point it adds the point's contribution
  to what the cell holds.  So at the first point a cell ends at one step of the fold from zero, whatever it held
  before, and at a later point at one step from what the point before left there: the cells are not written
  back between two points, the write-back being at the last point only.
-/
import proofs.«129287_j45200235823192_1_alg».proof.Proof.DataK
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## When the body resets its cells -/

/-- The condition of the body's one branch, from the grid coordinates: both coordinates are zero. -/
abbrev cond0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point of the grid and at no other: decided over the 64 points. -/
theorem hcond0 : ∀ t : Fin cfg0.N, cond0 (grid0.coords t) ↔ t.val = 0 :=
  (by decide +kernel : ∀ t : Fin grid0.N, cond0 (grid0.coords t) ↔ t.val = 0)

/-! ## The body on any whole staging buffers -/

/-- The offsets of a whole-buffer load or store of a rank-2 buffer are zero on both axes. -/
theorem zeros2 : (![0, 0] : Fin 2 → ℕ) = fun _ => 0 := by funext a; fin_cases a <;> rfl

set_option maxHeartbeats 1000000 in
/-- AT THE FIRST POINT (the branch taken): whatever the two cells held, the body stores zero into each, reads it
    back and stores the point's contribution added to it; the three input buffers are read and left as they were.
    Each cell is stored twice through its whole rectangle, so it ends at the later store's payload, in which the
    value read back between the stores is the zero the earlier one left. -/
theorem run0_first (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : cond0 i)
    (x0 x1 : Vec F S512x64 .f32) (x2 : Vec F S512x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (step0_3 i x0 x1 x2 (k0_pay4 (F := F)))
            ∗ owns (c : Thread nD τ) arg6 fullShare (step0_4 i x0 x1 x2 (k0_pay5 (F := F)))) -∗ K ⟨⟩))
      ⊢ wp frame (wpE (defs₀ (F := F)) Variants.none c none) E (cc0__stage1_kernel i arg2 harg2 arg3 harg3 arg4 harg4 arg5 harg5 arg6 harg6) K := by
  simp only [cc0__stage1_kernel_eq_skeleton]; unfold cc0__stage1_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => ⟨_, List.mem_cons_self, View.mem_set_unit_zero (S := S1x1) zeros2 inb_S1x1_S1x1_0_0 y⟩)]
    dsimp only
    sl_unfold_words
    rw [View.canon_cons_unit_zero (S := S1x1) zeros2]
    simp only [View.readAt_eq_ld, harg2.read_unread, harg3.read_unread, harg4.read_unread,
      View.ld_unit_zero (S := S512x64) zeros2, View.ld_unit_zero (S := S512x512) zeros2, View.readCov_unit_zero (S := S1x1) _ zeros2]
    rfl
  · iexists _; isplitr
    swap; · iexact H4
    ipureintro
    rw [View.read_writes_eq_canon _ _ _ (fun y => ⟨_, List.mem_cons_self, View.mem_set_unit_zero (S := S1x1) zeros2 inb_S1x1_S1x1_0_0 y⟩)]
    dsimp only
    sl_unfold_words
    rw [View.canon_cons_unit_zero (S := S1x1) zeros2]
    simp only [View.readAt_eq_ld, harg2.read_unread, harg3.read_unread, harg4.read_unread,
      View.ld_unit_zero (S := S512x64) zeros2, View.ld_unit_zero (S := S512x512) zeros2, View.readCov_unit_zero (S := S1x1) _ zeros2]
    rfl

set_option maxHeartbeats 1000000 in
/-- AT A LATER POINT (the branch not taken): the cells hold `p3`, `p4`; the body reads each and stores the point's
    contribution added to it; the three input buffers are read and left as they were. -/
theorem run0_later (c : Dev nD) (i : grid0.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : ¬cond0 i)
    (x0 x1 : Vec F S512x64 .f32) (x2 : Vec F S512x512 .f32) (p3 p4 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare p3 ∗ owns (c : Thread nD τ) arg6 fullShare p4
        ∗ (iprop(owns (c : Thread nD τ) arg2 fullShare x0 ∗ owns (c : Thread nD τ) arg3 fullShare x1 ∗ owns (c : Thread nD τ) arg4 fullShare x2
            ∗ owns (c : Thread nD τ) arg5 fullShare (step0_3 i x0 x1 x2 p3) ∗ owns (c : Thread nD τ) arg6 fullShare (step0_4 i x0 x1 x2 p4)) -∗ K ⟨⟩))
      ⊢ wp frame (wpE (defs₀ (F := F)) Variants.none c none) E (cc0__stage1_kernel i arg2 harg2 arg3 harg3 arg4 harg4 arg5 harg5 arg6 harg6) K := by
  simp only [cc0__stage1_kernel_eq_skeleton]; unfold cc0__stage1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => ⟨_, List.mem_singleton_self _, View.mem_set_unit_zero (S := S1x1) zeros2 inb_S1x1_S1x1_0_0 y⟩)]
    dsimp only
    sl_unfold_words
    rw [View.canon_unit_zero (S := S1x1) zeros2]
    simp only [View.readAt_eq_ld, harg2.read_unread, harg3.read_unread, harg4.read_unread, harg5.read_unread,
      View.ld_unit_zero (S := S512x64) zeros2, View.ld_unit_zero (S := S512x512) zeros2, View.ld_unit_zero (S := S1x1) zeros2]
    rfl
  · iexists _; isplitr
    swap; · iexact H4
    ipureintro
    rw [View.read_writes_eq_canon _ _ _ (fun y => ⟨_, List.mem_singleton_self _, View.mem_set_unit_zero (S := S1x1) zeros2 inb_S1x1_S1x1_0_0 y⟩)]
    dsimp only
    sl_unfold_words
    rw [View.canon_unit_zero (S := S1x1) zeros2]
    simp only [View.readAt_eq_ld, harg2.read_unread, harg3.read_unread, harg4.read_unread, harg6.read_unread,
      View.ld_unit_zero (S := S512x64) zeros2, View.ld_unit_zero (S := S512x512) zeros2, View.ld_unit_zero (S := S1x1) zeros2]
    rfl

/-! ## The proof data, window by window -/

variable (V : (c : Dev nD) → (b : Ref sig .tc) → Buf (Elt F) ((c : Thread nD τ).loc b))

/-- The arrays of the proof data are the contents the region finds. -/
theorem A0_eq (c : Dev nD) (w : Fin cfg0.W) : (dat0 V c).A w = V c (Pipeline.arrRef spec0 w) := by
  dsimp only [dat0]

/-- What the body leaves in each window's buffer, as the proof data names it. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0_3 V c t.val := by dsimp only [dat0]
theorem after0_4 (c : Dev nD) (t : Fin cfg0.N) : (dat0 V c).after 4 t = acc0_4 V c t.val := by dsimp only [dat0]

/-! ## What the buffers hold when the body runs -/

/-- An input's buffer holds its block at every point, fetched there or not: the body leaves the block in place,
    and at a point that does not fetch the window its block index has not moved.  Stated for any proof data over
    the region's arrays that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d

/-- After the first point a cell's buffer holds what the body left at the point before: the buffer is written
    back at the last point only, so never between two points. -/
theorem before0_3_later (c : Dev nD) (t : Fin cfg0.N) (h0 : t.val ≠ 0) (d) :
    (dat0 V c).before 3 t d = acc0_3 V c (t.val - 1) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    (fun _ => rfl) (fun _ _ => rfl)]
  dsimp only [dat0]
theorem before0_4_later (c : Dev nD) (t : Fin cfg0.N) (h0 : t.val ≠ 0) (d) :
    (dat0 V c).before 4 t d = acc0_4 V c (t.val - 1) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dat0]

/-! ## The fold, one point at a time -/

/-- At the first point the fold is one step from the zero the body stores. -/
theorem acc0_3_first (c : Dev nD) (t : Fin cfg0.N) (h0 : t.val = 0) :
    acc0_3 V c t.val = step0_3 (grid0.coords t) (iblk0 V c 0 t) (iblk0 V c 1 t) (iblk0 V c 2 t) (k0_pay4 (F := F)) := by
  obtain ⟨n, hn⟩ := t
  dsimp only at h0
  subst h0
  rw [acc0_3]; exact dif_pos hn
theorem acc0_4_first (c : Dev nD) (t : Fin cfg0.N) (h0 : t.val = 0) :
    acc0_4 V c t.val = step0_4 (grid0.coords t) (iblk0 V c 0 t) (iblk0 V c 1 t) (iblk0 V c 2 t) (k0_pay5 (F := F)) := by
  obtain ⟨n, hn⟩ := t
  dsimp only at h0
  subst h0
  rw [acc0_4]; exact dif_pos hn

/-- At a later point it is one step from the fold at the point before. -/
theorem acc0_3_later (c : Dev nD) (t : Fin cfg0.N) (h0 : t.val ≠ 0) :
    acc0_3 V c t.val = step0_3 (grid0.coords t) (iblk0 V c 0 t) (iblk0 V c 1 t) (iblk0 V c 2 t) (acc0_3 V c (t.val - 1)) := by
  obtain ⟨n, hn⟩ := t
  cases n with
  | zero => exact absurd rfl h0
  | succ n =>
    show acc0_3 V c (n + 1) = step0_3 _ _ _ _ (acc0_3 V c n)
    rw [acc0_3]; exact dif_pos hn
theorem acc0_4_later (c : Dev nD) (t : Fin cfg0.N) (h0 : t.val ≠ 0) :
    acc0_4 V c t.val = step0_4 (grid0.coords t) (iblk0 V c 0 t) (iblk0 V c 1 t) (iblk0 V c 2 t) (acc0_4 V c (t.val - 1)) := by
  obtain ⟨n, hn⟩ := t
  cases n with
  | zero => exact absurd rfl h0
  | succ n =>
    show acc0_4 V c (n + 1) = step0_4 _ _ _ _ (acc0_4 V c n)
    rw [acc0_4]; exact dif_pos hn

/-! ## The body at a point of the grid -/

/-- Each window's current staging buffer at point `t`, as the pipeline hands it to the body, and that it is a whole buffer. -/
abbrev ms0_0 (t : Fin cfg0.N) : Memref sig .tc .vmem S512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-- What the body is called with at point `t`: the obligation's precondition, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point.  The inputs' buffers hold their blocks; the invariant and what the core owes pass
    through untouched.  At the first point the cells may hold anything and end one step from zero; at a later
    point they hold the fold at the point before and end one step further. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0 V, before0_1 V, before0_2 V]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_3_first V c t h0, acc0_4_first V c t h0]
    iintro ⟨HΦ, Ho, ⟨%d0, H0⟩, ⟨%d1, H1⟩, ⟨%d2, H2⟩, ⟨%d3, H3⟩, ⟨%d4, H4⟩⟩
    iapply (run0_first c (grid0.coords t) (ms0_0 t) (hs0_0 t) (ms0_1 t) (hs0_1 t) (ms0_2 t) (hs0_2 t) (ms0_3 t) (hs0_3 t) (ms0_4 t) (hs0_4 t)
      ((hcond0 t).mpr h0) (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_3_later V c t h0, acc0_4_later V c t h0]
    simp only [before0_3_later V c t h0, before0_4_later V c t h0]
    iintro ⟨HΦ, Ho, ⟨%d0, H0⟩, ⟨%d1, H1⟩, ⟨%d2, H2⟩, ⟨%d3, H3⟩, ⟨%d4, H4⟩⟩
    iapply (run0_later c (grid0.coords t) (ms0_0 t) (hs0_0 t) (ms0_1 t) (hs0_1 t) (ms0_2 t) (hs0_2 t) (ms0_3 t) (hs0_3 t) (ms0_4 t) (hs0_4 t)
      (fun h => h0 ((hcond0 t).mp h)) (iblk0 V c 0 t) (iblk0 V c 1 t) (iblk0 V c 2 t) (acc0_3 V c (t.val - 1)) (acc0_4 V c (t.val - 1)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 0, at every point: from the invariant, the core owing nothing and
    every window's current staging buffer at what the point finds there, the body runs to the same with every
    buffer at what the proof data says the body leaves. -/
theorem body_obligation0 (c : Dev nD) :
    BodyObligation (dat0 (F := F) V c) (defs₀ (F := F)) Variants.none () Set.univ := fun t => by
  rw [bigSep_W0, bigSep_W0]
  exact sound_body V c t

end Cert.Kernel.Hand

end
-- ==== Proof.Body1K.lean ====
/-
  Region 1's kernel body meets its proof data at every grid point.

  The region walks the 8 × 8 grid of tiles.  At a point the body reads the tile's rows and columns of the points
  table, the tile of target distances and the scale, and adds the tile's sum of squared relative distortions to the
  one output cell; at the first point it first stores zero there.  The cell is written back only after the last
  point, so between points it keeps what the body left: after point `t` it holds the fold `acc1_4` of the step
  function up to `t`.
-/
import proofs.«129287_j45200235823192_1_alg».proof.Proof.DataK
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the proof data says of each window -/

/-- The proof data's arrays are the contents the region is entered with. -/
theorem A_eq1 (c : Dev nD) (w : Fin cfg1.W) : (dat1 V c).A w = V c (Pipeline.arrRef spec1 w) := by
  dsimp only [dat1]

/-- After the body an input's buffer holds its block, and the output's the fold up to the point. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1_4 V c t.val := by dsimp only [dat1]

/-! ## What each buffer holds when the body starts

An input's buffer holds the window's block at the point whether or not the point fetched it: a point that does not
fetch has the block index of the point before, and the body left that block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The grid has 64 points. -/
theorem N1_eq : cfg1.N = 64 := N_1

/-- At the first point the output's buffer is fresh: it holds anything. -/
theorem before1_4_first (c : Dev nD) (t : Fin cfg1.N) (h0 : t.val = 0) (d) : (dat1 V c).before 4 t d = d :=
  (dat1 V c).before_out_reset 4 rfl t (.inl h0) d

/-- At a later point it holds the fold up to the point before: the buffer is written back only after the last
    point, so nothing touched it in between. -/
theorem before1_4_later (c : Dev nD) (t : Fin cfg1.N) (h0 : t.val ≠ 0) (d) :
    (dat1 V c).before 4 t d = acc1_4 V c (t.val - 1) := by
  have hN : t.val < 64 := lt_of_lt_of_eq t.isLt N1_eq
  rw [Dat.before_out_kept _ 4 rfl t h0
    (Bool.eq_false_iff.mpr fun h => by have := (flush1_4 _).mp h; dsimp only at this; omega)
    (fun _ => rfl) (fun _ _ => rfl)]
  dsimp only [dat1]

/-! ## The fold, one step at a time -/

/-- At the first point the cell ends at one step from the zero the body stores. -/
theorem acc1_4_first (c : Dev nD) (t : Fin cfg1.N) (h0 : t.val = 0) :
    acc1_4 V c t.val = step1_4 (grid1.coords t) (iblk1 V c 0 t) (iblk1 V c 1 t) (iblk1 V c 2 t) (iblk1 V c 3 t) (k1_pay2 (F := F)) := by
  obtain ⟨n, hn⟩ := t
  cases n with
  | zero => rw [acc1_4, dif_pos hn]
  | succ n => exact absurd h0 (Nat.succ_ne_zero n)

/-- At a later point it ends at one step from what the point before left. -/
theorem acc1_4_later (c : Dev nD) (t : Fin cfg1.N) (h0 : t.val ≠ 0) :
    acc1_4 V c t.val = step1_4 (grid1.coords t) (iblk1 V c 0 t) (iblk1 V c 1 t) (iblk1 V c 2 t) (iblk1 V c 3 t) (acc1_4 V c (t.val - 1)) := by
  obtain ⟨n, hn⟩ := t
  cases n with
  | zero => exact absurd rfl h0
  | succ n => rw [acc1_4, dif_pos hn]; rfl

/-! ## The body's branch -/

/-- The condition under which the body stores the zero, from the grid coordinates: both are zero. -/
abbrev cond1 (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only: decided over the grid. -/
theorem hcond1 : ∀ t : Fin cfg1.N, cond1 (grid1.coords t) ↔ t.val = 0 :=
  (by decide +kernel : ∀ t : Fin grid1.N, cond1 (grid1.coords t) ↔ t.val = 0)

/-! ## The body on any whole staging buffers -/

/-- The zero offsets of the body's whole-buffer loads and stores, as a function. -/
private theorem hz2 : (![0, 0] : Fin 2 → Nat) = fun _ => 0 := funext fun a => by fin_cases a <;> rfl

set_option maxHeartbeats 1000000 in
/-- The body at a point AFTER the first, on whole staging buffers: the inputs' at any contents, the output's at
    what it held.  The branch is not taken; the body loads the five buffers and stores the step of what the output
    held, so the output's one covering store leaves exactly `step1_4`. -/
theorem kernel1_later (c : Dev nD) (E : Set ℕ) (i : grid1.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : ¬cond1 i)
    (x0 x1 : Vec F S512x64 .f32) (x2 : Vec F S512x512 .f32) (x3 prev : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare prev
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (step1_4 i x0 x1 x2 x3 prev)) -∗ K ⟨⟩))
      ⊢ wp frame (wpE (defs₀ (F := F)) Variants.none c none) E (cc1__stage2_kernel i arg2 harg2 arg3 harg3 arg4 harg4 arg5 harg5 arg6 harg6) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero (S := S1x1) hz2 inb_S1x1_S1x1_0_0 y⟩)]
  rw [View.canon_unit_zero (S := S1x1) hz2]
  sl_unfold_words
  simp only [View.readAt_eq_ld, harg2.read_unread, harg3.read_unread, harg4.read_unread, harg5.read_unread, harg6.read_unread,
    View.ld_unit_zero (S := S512x64) hz2, View.ld_unit_zero (S := S512x512) hz2, View.ld_unit_zero (S := S1x1) hz2]
  rfl

set_option maxHeartbeats 1000000 in
/-- The body at the FIRST point, on whole staging buffers: the inputs' at any contents, the output's at anything.
    The branch is taken: the body stores zero into the output, reads it back, and stores the step of it; the last
    store covers the cell, and the load in between reads the zero just stored. -/
theorem kernel1_first (c : Dev nD) (E : Set ℕ) (i : grid1.Coords)
    (arg2 : Memref sig .tc .vmem S512x64 .f32) (harg2 : arg2.IsWhole) (arg3 : Memref sig .tc .vmem S512x64 .f32) (harg3 : arg3.IsWhole)
    (arg4 : Memref sig .tc .vmem S512x512 .f32) (harg4 : arg4.IsWhole) (arg5 : Memref sig .tc .vmem S1x1 .f32) (harg5 : arg5.IsWhole)
    (arg6 : Memref sig .tc .vmem S1x1 .f32) (harg6 : arg6.IsWhole) (hc : cond1 i)
    (x0 x1 : Vec F S512x64 .f32) (x2 : Vec F S512x512 .f32) (x3 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (step1_4 i x0 x1 x2 x3 (k1_pay2 (F := F)))) -∗ K ⟨⟩))
      ⊢ wp frame (wpE (defs₀ (F := F)) Variants.none c none) E (cc1__stage2_kernel i arg2 harg2 arg3 harg3 arg4 harg4 arg5 harg5 arg6 harg6) K := by
  simp only [cc1__stage2_kernel_eq_skeleton]; unfold cc1__stage2_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2
  obtain rfl := harg5.eq_unread hf3
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_cons_self, View.mem_set_unit_zero (S := S1x1) hz2 inb_S1x1_S1x1_0_0 y⟩)]
  rw [View.canon_cons_unit_zero (S := S1x1) hz2]
  sl_unfold_words
  simp only [View.readAt_eq_ld, harg2.read_unread, harg3.read_unread, harg4.read_unread, harg5.read_unread,
    View.ld_unit_zero (S := S512x64) hz2, View.ld_unit_zero (S := S512x512) hz2, View.ld_unit_zero (S := S1x1) hz2,
    View.readCov_unit_zero (S := S1x1) _ hz2]
  rfl

/-! ## The body obligation, at a generic point -/

/-- What the body is called with at point `t`: the invariant, the core owing nothing, and each window's current
    staging buffer at what the point finds there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any point.  The inputs' buffers hold their blocks.  At the first point the branch is taken and the
    output's buffer, holding anything, ends at one step from zero; at a later point the branch is not taken and the
    buffer, holding the fold up to the point before, ends at one step from that: in both cases the fold up to this
    point.  The invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [acc1_4_first V c t h0]
    simp only [before1_4_first V c t h0]
    iintro ⟨HΦ, Ho, ⟨%d0, H0⟩, ⟨%d1, H1⟩, ⟨%d2, H2⟩, ⟨%d3, H3⟩, ⟨%d4, H4⟩⟩
    iapply (kernel1_first c Set.univ (grid1.coords t) _ _ _ _ _ _ _ _ _ _ ((hcond1 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc1_4_later V c t h0]
    simp only [before1_4_later V c t h0]
    iintro ⟨HΦ, Ho, ⟨%d0, H0⟩, ⟨%d1, H1⟩, ⟨%d2, H2⟩, ⟨%d3, H3⟩, ⟨%d4, H4⟩⟩
    iapply (kernel1_later c Set.univ (grid1.coords t) _ _ _ _ _ _ _ _ _ _ (fun h => h0 ((hcond1 t).mp h))
      (iblk1 V c 0 t) (iblk1 V c 1 t) (iblk1 V c 2 t) (iblk1 V c 3 t) (acc1_4 V c (t.val - 1)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation for region 1, at every point: from the invariant, the core owing nothing and
    every window's current staging buffer at what the point finds there, the body runs to the same with every
    buffer at what the proof data says the body leaves. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.KernelRunK.lean ====
/-
  The kernel's program runs: every weakly fair execution ends, nothing faulting, with every buffer that outlives the
  regions at the last valuation — the launch over the four items (region, host stretch, region, host stretch).
-/
import proofs.«129287_j45200235823192_1_alg».proof.Proof.SegsK
import proofs.«129287_j45200235823192_1_alg».proof.Proof.RunK
import proofs.«129287_j45200235823192_1_alg».proof.Proof.Body0K
import proofs.«129287_j45200235823192_1_alg».proof.Proof.Body1K

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch deals a core makes the rest that rides beside its buffers. -/
theorem rest_init (c : Dev nD) :
    (iprop(unscopedSems0 c ∗ owes (c : Thread nD τ) (0 : CellTallies nD τ sig Unit) ∅ ∗ Pipeline.launchCred (fun _ : Dev nD => (0 : CellTallies nD τ sig Unit)) c
        ∗ prngReg c (ρ c) ∗ (BI.emp : sProp 𝕄)) : sProp 𝕄) ⊢ Rst (F := F) c := by
  iintro ⟨-, HO, -, Hp, -⟩
  isplitl [Hp]; · iexists _; iexact Hp
  iexists ∅; iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN, at any float instance: every weakly fair execution of @main from memory `m` with zero counters terminates,
    and every final memory holds each buffer that outlives the regions at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) :=
  Gen.run_cond m emb₁ () 𝒱₀ L lv (fun _ _ => rfl) ρ (outs m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Est)
    (hE0 := by
      have hmono : (bigSep Finset.univ (fun c : Dev nD => iprop(unscopedSems0 c ∗ owes (c : Thread nD τ) (0 : CellTallies nD τ sig Unit) ∅
            ∗ Pipeline.launchCred (fun _ : Dev nD => (0 : CellTallies nD τ sig Unit)) c ∗ prngReg c (ρ c) ∗ (BI.emp : sProp 𝕄))) : sProp 𝕄)
          ⊢ bigSep Finset.univ (Rst (F := F)) := bigSep_mono fun c _ => rest_init (F := F) ρ c
      iintro ⟨H, -⟩
      imodintro
      iapply hmono
      iexact H)
    (hE2 := fun c => by iintro ⟨-, HO⟩; iexact HO)
    (reg0 m (body_obligation0 (Ve0 m))) (fun c => .rfl) (fun c => .rfl)
    (reg1 m (body_obligation1 (Ve2 m))) (fun c => .rfl) (fun c => .rfl)

end Cert.Kernel.Hand

end
-- ==== Proof.Spec.lean ====
/-
  The distortion loss as one function of the two argument arrays, over the extended reals.

  For a table of points `M` (4096 rows of 64 coordinates) and a table of target distances `D` (4096 × 4096):
  the pairwise distance `dist M R C` is the square root of the positive part of
  ‖M R‖² + ‖M C‖² − 2 ⟨M R, M C⟩ (zero where that is not positive); the denominator is
  `D R C + [R = C] + ε`; `a = dist / denom`; the scale is `(∑ a) / (∑ a²)`; the loss is the sum of
  `(scale · dist − D)² / denom²` over all pairs, divided by 4096 · 4095.  Both programs compute exactly
  this; they differ in how the three sums over the 4096 × 4096 pairs are grouped.
-/
import Idealize.ShloMosaic.PureOps.Ideal
import Idealize.ShloMosaic.Lib.ValueIdx

noncomputable section

open scoped BigOperators

namespace Cert.Spec

open Idealize.ShloMosaic Idealize.ShloMosaic.ValueIdx

abbrev SM : Shape := ⟨2, ![4096, 64]⟩
abbrev SD : Shape := ⟨2, ![4096, 4096]⟩

/-- The literals the two programs share, as the extended reals their words denote. -/
abbrev zero : EReal := Ideal.ofBits .f32 0x00000000#32
abbrev one : EReal := Ideal.ofBits .f32 0x3F800000#32
abbrev two : EReal := Ideal.ofBits .f32 0x40000000#32
abbrev eps : EReal := Ideal.ofBits .f32 0x322BCC77#32
abbrev pairs : EReal := Ideal.ofBits .f32 0x4B7FF000#32

variable (M : SM.Idx → EReal) (D : SD.Idx → EReal)

/-- The squared norm of row `R`. -/
def sqn (R : Fin 4096) : EReal := ∑ k : Fin 64, M (ix2 R k) * M (ix2 R k)
/-- The inner product of rows `R` and `C`. -/
def gram (R C : Fin 4096) : EReal := ∑ k : Fin 64, M (ix2 R k) * M (ix2 C k)
/-- The clamped squared distance. -/
def sq (R C : Fin 4096) : EReal := max ((sqn M R + sqn M C) - two * gram M R C) zero
/-- The distance: the root where the square is positive, zero elsewhere (the root is taken of 1 there). -/
def dist (R C : Fin 4096) : EReal :=
  Scalar.select (Ideal.cmp .ogt (sq M R C) zero)
    (Ideal.sqrt (Scalar.select (Ideal.cmp .ogt (sq M R C) zero) (sq M R C) one)) zero
/-- One on the diagonal, zero off it. -/
def eye (R C : Fin 4096) : EReal := if R = C then one else zero
/-- The denominator. -/
def denom (R C : Fin 4096) : EReal := (D (ix2 R C) + eye R C) + eps
/-- The quotient summed twice for the scale. -/
def quot (R C : Fin 4096) : EReal := Ideal.div (dist M R C) (denom D R C)
def sumQuot : EReal := ∑ R : Fin 4096, ∑ C : Fin 4096, quot M D R C
def sumQuotSq : EReal := ∑ R : Fin 4096, ∑ C : Fin 4096, quot M D R C * quot M D R C
/-- The scale-free factor. -/
def scale : EReal := Ideal.div (sumQuot M D) (sumQuotSq M D)
/-- One pair's squared distortion under a scale `s`. -/
def term (s : EReal) (R C : Fin 4096) : EReal :=
  Ideal.div ((s * dist M R C - D (ix2 R C)) * (s * dist M R C - D (ix2 R C))) (denom D R C * denom D R C)
def sumTerm (s : EReal) : EReal := ∑ R : Fin 4096, ∑ C : Fin 4096, term M D s R C
/-- The loss. -/
def loss : EReal := Ideal.div (sumTerm M D (scale M D)) pairs

end Cert.Spec

end
-- ==== Proof.LibLayout.lean ====
/-
  Layout facts used by both kernels of this certificate, over arbitrary extents.

  A vector of per-channel coefficients meets a batch of matrices in two ways. The kernels cast the vector to a shape with
  leading unit axes and broadcast it down those axes; the reference broadcasts the vector along its own (last) axis in two
  steps. Read at an index, all of them pick the coefficient of the index's last coordinate. The lemmas here read each such
  cast or broadcast at an index written by coordinates, state the two-dimensional pair as one equation of arrays, and note
  that a matrix product whose operands were narrowed to bf16 and accumulated into zeros is, on extended reals, the plain
  contraction of the un-narrowed operands.
-/
import Idealize.ShloMosaic.Lib.ValueLayout
import Idealize.ShloMosaic.Lib.KernelVsHost

namespace Idealize.ShloMosaic.ValueIdx

open Idealize.ShloMosaic

variable {α : Type}

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, b]` matrix cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, 1, c]` array broadcast to `[a, b, c]` reads, at `(i, j, k)`, its one fibre at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector broadcast along axis 1 of `[1, n]` reads, at `(u, t)`, the vector at `t`. -/
theorem broadcastInDim_a_1a_apply {n : ℕ} (hd : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] hd x (ix2 u t) = x (ix1 t) := by
  refine broadcastInDim_apply ![1] hd x (ix2 u t) (ix1 t) fun ax => ?_
  match ax with
  | ⟨0, _⟩ =>
    show t.val = if n = 1 then 0 else t.val
    split
    · have := t.isLt; omega
    · rfl

/-- A vector of `n` entries laid along each of `m` rows, two spellings: the cast to one row broadcast down the rows,
    and the broadcast along axis 1 of a one-row matrix broadcast again down the rows. -/
theorem broadcastTo_row_eq_broadcastInDim_twice {m n : ℕ} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd : (⟨1, ![n]⟩ : Shape).BroadcastsInDim ⟨2, ![1, n]⟩ ![1])
    (hbc : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hbc (broadcastInDim ⟨2, ![1, n]⟩ ![1] hd x) := by
  funext i
  obtain ⟨r, t, rfl⟩ : ∃ (r : Fin m) (t : Fin n), i = ix2 r t := ⟨i 0, i 1, eq_ix2 i⟩
  rw [broadcastTo_1b_ab_apply, shapeCast_a_1a_apply, broadcastInDim_oneRow_apply, broadcastInDim_a_1a_apply]

/-- A vector broadcast along the last axis of `[1, 1, n]` reads, at `(u, v, t)`, the vector at `t`. -/
theorem broadcastInDim_a_11a_apply {n : ℕ} (hd : (⟨1, ![n]⟩ : Shape).BroadcastsInDim ⟨3, ![1, 1, n]⟩ ![2])
    (x : (⟨1, ![n]⟩ : Shape).Idx → α) (u v : Fin 1) (t : Fin n) :
    broadcastInDim ⟨3, ![1, 1, n]⟩ ![2] hd x (ix3 u v t) = x (ix1 t) := by
  refine broadcastInDim_apply ![2] hd x (ix3 u v t) (ix1 t) fun ax => ?_
  match ax with
  | ⟨0, _⟩ =>
    show t.val = if n = 1 then 0 else t.val
    split
    · have := t.isLt; omega
    · rfl

/-- A `[1, 1, c]` array broadcast in place to `[a, b, c]` reads, at `(i, j, k)`, its one fibre at `k`. -/
theorem broadcastInDim_11c_abc_apply {a b c : ℕ} (h : (⟨3, ![1, 1, c]⟩ : Shape).BroadcastsInDim ⟨3, ![a, b, c]⟩ ![0, 1, 2])
    (y : (⟨3, ![1, 1, c]⟩ : Shape).Idx → α) (i : Fin a) (j : Fin b) (k : Fin c) :
    broadcastInDim ⟨3, ![a, b, c]⟩ ![0, 1, 2] h y (ix3 i j k) = y (ix3 (0 : Fin 1) (0 : Fin 1) k) := by
  refine broadcastInDim_apply ![0, 1, 2] h y (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b]` matrix broadcast along axes 0 and 1 of `[a, b, 1]` reads, at `(i, j, u)`, the matrix at `(i, j)`. -/
theorem broadcastInDim_ab_ab1_apply {a b : ℕ} (h : (⟨2, ![a, b]⟩ : Shape).BroadcastsInDim ⟨3, ![a, b, 1]⟩ ![0, 1])
    (x : (⟨2, ![a, b]⟩ : Shape).Idx → α) (i : Fin a) (j : Fin b) (u : Fin 1) :
    broadcastInDim ⟨3, ![a, b, 1]⟩ ![0, 1] h x (ix3 i j u) = x (ix2 i j) := by
  refine broadcastInDim_apply ![0, 1] h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array broadcast in place to `[a, b, c]` reads, at `(i, j, k)`, the array at `(i, j, 0)`. -/
theorem broadcastInDim_ab1_abc_apply {a b c : ℕ} (h : (⟨3, ![a, b, 1]⟩ : Shape).BroadcastsInDim ⟨3, ![a, b, c]⟩ ![0, 1, 2])
    (y : (⟨3, ![a, b, 1]⟩ : Shape).Idx → α) (i : Fin a) (j : Fin b) (k : Fin c) :
    broadcastInDim ⟨3, ![a, b, c]⟩ ![0, 1, 2] h y (ix3 i j k) = y (ix3 i j (0 : Fin 1)) := by
  refine broadcastInDim_apply ![0, 1, 2] h y (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A vector laid along the last axis of a batch of matrices, the reference's two steps: at `(i, j, k)` it reads the
    vector at `k`. -/
theorem broadcastInDim_vec_abc_apply {a b c : ℕ} (hd : (⟨1, ![c]⟩ : Shape).BroadcastsInDim ⟨3, ![1, 1, c]⟩ ![2])
    (h : (⟨3, ![1, 1, c]⟩ : Shape).BroadcastsInDim ⟨3, ![a, b, c]⟩ ![0, 1, 2])
    (x : (⟨1, ![c]⟩ : Shape).Idx → α) (i : Fin a) (j : Fin b) (k : Fin c) :
    broadcastInDim ⟨3, ![a, b, c]⟩ ![0, 1, 2] h (broadcastInDim ⟨3, ![1, 1, c]⟩ ![2] hd x) (ix3 i j k) = x (ix1 k) := by
  rw [broadcastInDim_11c_abc_apply, broadcastInDim_a_11a_apply]

/-- A matrix repeated along a new last axis, the reference's two steps: at `(i, j, k)` it reads the matrix at `(i, j)`. -/
theorem broadcastInDim_mat_abc_apply {a b c : ℕ} (hd : (⟨2, ![a, b]⟩ : Shape).BroadcastsInDim ⟨3, ![a, b, 1]⟩ ![0, 1])
    (h : (⟨3, ![a, b, 1]⟩ : Shape).BroadcastsInDim ⟨3, ![a, b, c]⟩ ![0, 1, 2])
    (x : (⟨2, ![a, b]⟩ : Shape).Idx → α) (i : Fin a) (j : Fin b) (k : Fin c) :
    broadcastInDim ⟨3, ![a, b, c]⟩ ![0, 1, 2] h (broadcastInDim ⟨3, ![a, b, 1]⟩ ![0, 1] hd x) (ix3 i j k) = x (ix2 i j) := by
  rw [broadcastInDim_ab1_abc_apply, broadcastInDim_ab_ab1_apply]

/-! ## The transcendental operations at an index, at the ideal values

A kernel's vector operation and the host's operation of the same name are one function of the element. -/

section Pointwise
variable {s : Shape} {φ : FTy}

theorem exp_apply (a : FVec Ideal s φ) (i : s.Idx) : exp a i = Ideal.exp (a i) := rfl
theorem sqrt_apply (a : FVec Ideal s φ) (i : s.Idx) : sqrt a i = Ideal.sqrt (a i) := rfl
theorem sin_apply (a : FVec Ideal s φ) (i : s.Idx) : sin a i = Ideal.sin (a i) := rfl
theorem cos_apply (a : FVec Ideal s φ) (i : s.Idx) : cos a i = Ideal.cos (a i) := rfl
theorem hostExp_apply (a : FVec Ideal s φ) (i : s.Idx) : Host.exp a i = Ideal.exp (a i) := rfl
theorem hostSqrt_apply (a : FVec Ideal s φ) (i : s.Idx) : Host.sqrt a i = Ideal.sqrt (a i) := rfl
theorem hostSin_apply (a : FVec Ideal s φ) (i : s.Idx) : Host.sin a i = Ideal.sin (a i) := rfl
theorem hostCos_apply (a : FVec Ideal s φ) (i : s.Idx) : Host.cos a i = Ideal.cos (a i) := rfl
theorem hostNegf_apply (a : FVec Ideal s φ) (i : s.Idx) : Host.negf a i = -(a i) := rfl
theorem hostDivf_apply (a b : FVec Ideal s φ) (i : s.Idx) : Host.divf a b i = Ideal.div (a i) (b i) := rfl

end Pointwise

end Idealize.ShloMosaic.ValueIdx

namespace Idealize.ShloMosaic

/-- On extended reals a change of float format is the identity, so a product of operands narrowed to bf16 and accumulated
    into a zero splat is the host's contraction of the operands as they were. -/
theorem matmul_truncf_zero_eq_dotGeneral {sl sr so : Shape} (d : DotDims sl sr so) (prec : Option ContractPrecision)
    (lhs : FVec Ideal sl .f32) (rhs : FVec Ideal sr .f32) (hl : FTy.bf16.bits < FTy.f32.bits) (hr : FTy.bf16.bits < FTy.f32.bits) :
    matmul d prec (truncf .bf16 lhs hl) (truncf .bf16 rhs hr) (constant so .f32 0x00000000#32) = Host.dotGeneral d prec lhs rhs := by
  funext j
  show FloatOps.matmul d prec (truncf .bf16 lhs hl) (truncf .bf16 rhs hr) (constant so .f32 0x00000000#32) j
    = FloatOps.dotGeneral d prec _ lhs rhs j
  rw [Ideal.matmul_constant_zero_apply, Ideal.dotGeneral_apply]
  rfl

end Idealize.ShloMosaic
-- ==== Proof.PointValue.lean ====
/-
  One grid point's arithmetic, read over the extended reals.

  At a point the body sees 512 rows of the points table twice (the tile's rows and its columns) and a 512 × 512
  tile of the target distances.  Each output cell grows by the sum, over the tile's 512 × 512 pairs, of the pair's
  term: the quotient (first sum), its square (second sum), the squared distortion under the given scale (third).
-/
import proofs.«129287_j45200235823192_1_alg».proof.Proof.Data
import proofs.«129287_j45200235823192_1_alg».proof.Proof.Spec
import proofs.«129287_j45200235823192_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

/-- Row (or column) `r` of tile-row (tile-column) `I` in the whole table. -/
def tile (I : Fin 8) (r : Fin 512) : Fin 4096 := ⟨512 * I.val + r.val, by have := I.isLt; have := r.isLt; omega⟩

variable (M : Spec.SM.Idx → EReal) (D : Spec.SD.Idx → EReal)

/-! ## Layout operations the tile arithmetic meets, read at an index -/

section Layout
variable {α : Type}

/-- A vector of `a` entries cast to one column `[a, 1]` reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast to `[a, b]` reads, at `(i, j)`, the column at row `i`. -/
private theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The squared norms and the inner products of a tile -/

/-- The sum along a row's 64 coordinates. -/
private theorem rowSum_apply (v : FVec Ideal S512x64 .f32) (h : S512x64.Reduces [1] S512) (hφ : FKind.Formats .f32)
    (hacc : (0x00000000#32 : BitVec 32) = 0x00000000#32) (r : Fin 512) :
    multiReduction (F := Ideal) .add [1] S512 v 0x00000000#32 h hφ hacc (ix1 r) = ∑ k : Fin 64, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- Output `(r, c)` of the tile's product reads row `r` of its left operand … -/
private theorem gram_lhs_0 (i : S512x512.Idx) (q : Cert.KernelIdeal.dot_S512x64_S64x512_S512x512_1_0_0_1_n_n.contr.Idx) :
    (Cert.KernelIdeal.dot_S512x64_S64x512_S512x512_1_0_0_1_n_n.lhsIdx i q 0).val = (i 0).val := by
  unfold DotDims.lhsIdx
  rw [dif_neg (show ¬(0 : Fin S512x64.rank) ∈ Cert.KernelIdeal.dot_S512x64_S64x512_S512x512_1_0_0_1_n_n.lhsBatch by decide), dif_pos (show (0 : Fin S512x64.rank) ∈ Cert.KernelIdeal.dot_S512x64_S64x512_S512x512_1_0_0_1_n_n.lhsNonContracting by decide)]
  rfl
/-- … at the contracted coordinate, -/
private theorem gram_lhs_1 (i : S512x512.Idx) (q : Cert.KernelIdeal.dot_S512x64_S64x512_S512x512_1_0_0_1_n_n.contr.Idx) :
    (Cert.KernelIdeal.dot_S512x64_S64x512_S512x512_1_0_0_1_n_n.lhsIdx i q 1).val = (q ⟨0, by decide⟩).val :=
  Cert.KernelIdeal.dot_S512x64_S64x512_S512x512_1_0_0_1_n_n.lhsIdx_val_of_single rfl i q
/-- and the contracted coordinate … -/
private theorem gram_rhs_0 (i : S512x512.Idx) (q : Cert.KernelIdeal.dot_S512x64_S64x512_S512x512_1_0_0_1_n_n.contr.Idx) :
    (Cert.KernelIdeal.dot_S512x64_S64x512_S512x512_1_0_0_1_n_n.rhsIdx i q 0).val = (q ⟨0, by decide⟩).val :=
  Cert.KernelIdeal.dot_S512x64_S64x512_S512x512_1_0_0_1_n_n.rhsIdx_val_of_single rfl i q
/-- … of column `c` of its right operand. -/
private theorem gram_rhs_1 (i : S512x512.Idx) (q : Cert.KernelIdeal.dot_S512x64_S64x512_S512x512_1_0_0_1_n_n.contr.Idx) :
    (Cert.KernelIdeal.dot_S512x64_S64x512_S512x512_1_0_0_1_n_n.rhsIdx i q 1).val = (i 1).val := by
  unfold DotDims.rhsIdx
  rw [dif_neg (show ¬(1 : Fin S64x512.rank) ∈ Cert.KernelIdeal.dot_S512x64_S64x512_S512x512_1_0_0_1_n_n.rhsBatch by decide), dif_pos (show (1 : Fin S64x512.rank) ∈ Cert.KernelIdeal.dot_S512x64_S64x512_S512x512_1_0_0_1_n_n.rhsNonContracting by decide)]
  rfl

/-- The tile's product of the narrowed row block with the narrowed, transposed column block, accumulated into zeros:
    on extended reals the narrowing is the identity, so entry `(r, c)` is the inner product of row `r` of the one block
    with row `c` of the other. -/
private theorem gram_apply (x0 x1 : FVec Ideal S512x64 .f32) (hb : FTy.bits .bf16 < FTy.bits .f32)
    (ht : S512x64.Transposes [1, 0] S64x512) (r c : Fin 512) :
    matmul (F := Ideal) Cert.KernelIdeal.dot_S512x64_S64x512_S512x512_1_0_0_1_n_n none (truncf .bf16 x0 hb)
        (transpose S64x512 [1, 0] (truncf .bf16 x1 hb) ht) (constant S512x512 .f32 0x00000000#32) (ix2 r c)
      = ∑ k : Fin 64, x0 (ix2 r k) * x1 (ix2 c k) := by
  simp only [matmul]
  rw [Ideal.matmul_constant_zero_apply, ← Equiv.sum_comp (contrEquiv1 Cert.KernelIdeal.dot_S512x64_S64x512_S512x512_1_0_0_1_n_n 64 rfl rfl).symm]
  refine Finset.sum_congr rfl fun k _ => ?_
  have hk := contrEquiv1_symm_val Cert.KernelIdeal.dot_S512x64_S64x512_S512x512_1_0_0_1_n_n 64 rfl rfl k
  have el : Cert.KernelIdeal.dot_S512x64_S64x512_S512x512_1_0_0_1_n_n.lhsIdx (ix2 r c) ((contrEquiv1 Cert.KernelIdeal.dot_S512x64_S64x512_S512x512_1_0_0_1_n_n 64 rfl rfl).symm k) = ix2 r k := funext fun a => Fin.ext (by
    match a with
    | ⟨0, _⟩ => exact gram_lhs_0 _ _
    | ⟨1, _⟩ => exact (gram_lhs_1 _ _).trans hk)
  have er : Cert.KernelIdeal.dot_S512x64_S64x512_S512x512_1_0_0_1_n_n.rhsIdx (ix2 r c) ((contrEquiv1 Cert.KernelIdeal.dot_S512x64_S64x512_S512x512_1_0_0_1_n_n 64 rfl rfl).symm k) = ix2 k c := funext fun a => Fin.ext (by
    match a with
    | ⟨0, _⟩ => exact (gram_rhs_0 _ _).trans hk
    | ⟨1, _⟩ => exact gram_rhs_1 _ _)
  rw [el, er, truncf_apply, transpose_ix2_apply, truncf_apply]

/-! ## The diagonal -/

/-- Row `512 I + r` and column `512 J + c` of the pair table, as the 32-bit words the body computes, are the same word
    exactly when they are the same number: both are below `2 ^ 32`. -/
private theorem word_eq_iff (I J : Fin 8) (r c : Fin 512) :
    (BitVec.ofNat 32 I.val * 512#32 + BitVec.ofNat 32 r.val = BitVec.ofNat 32 J.val * 512#32 + BitVec.ofNat 32 c.val)
      ↔ tile I r = tile J c := by
  have hI := I.isLt; have hJ := J.isLt; have hr := r.isLt; have hc := c.isLt
  rw [← BitVec.toNat_inj, Fin.ext_iff]
  simp only [BitVec.toNat_add, BitVec.toNat_mul, BitVec.toNat_ofNat, tile]
  omega

/-! ## The distance tile -/

/-- Entry `(r, c)` of the distance tile a point computes from its two row blocks is the specification's distance between
    row `512 I + r` and row `512 J + c` of the points table. -/
private theorem dist_tile0_apply (I J : Fin 8) (x0 x1 : Vec Ideal S512x64 .f32)
    (h0 : ∀ (r : Fin 512) (k : Fin 64), x0 (ix2 r k) = M (ix2 (tile I r) k))
    (h1 : ∀ (c : Fin 512) (k : Fin 64), x1 (ix2 c k) = M (ix2 (tile J c) k))
    (r c : Fin 512) :
    k0_pay6 (F := Ideal) x0 x1 (ix2 r c) = Spec.dist M (tile I r) (tile J c) := by
  unfold k0_pay6
  simp only [select_apply, cmpf_apply, sqrt_apply, maximumf_apply, subf_apply, addf_apply, mulf_apply, broadcast_apply,
    broadcastTo_a1_ab_apply, broadcastTo_1b_ab_apply, shapeCast_a_a1_apply, shapeCast_a_1a_apply, Ideal.ofBits_def, Ideal.cmpf_def]
  rw [gram_apply, rowSum_apply, rowSum_apply]
  simp only [mulf_apply, h0, h1]
  rfl

/-- The same for the second region, whose body computes the tile by the same operations. -/
private theorem dist_tile1_apply (I J : Fin 8) (x0 x1 : Vec Ideal S512x64 .f32)
    (h0 : ∀ (r : Fin 512) (k : Fin 64), x0 (ix2 r k) = M (ix2 (tile I r) k))
    (h1 : ∀ (c : Fin 512) (k : Fin 64), x1 (ix2 c k) = M (ix2 (tile J c) k))
    (r c : Fin 512) :
    k1_pay3 (F := Ideal) x0 x1 (ix2 r c) = Spec.dist M (tile I r) (tile J c) := by
  unfold k1_pay3
  simp only [select_apply, cmpf_apply, sqrt_apply, maximumf_apply, subf_apply, addf_apply, mulf_apply, broadcast_apply,
    broadcastTo_a1_ab_apply, broadcastTo_1b_ab_apply, shapeCast_a_a1_apply, shapeCast_a_1a_apply, Ideal.ofBits_def, Ideal.cmpf_def]
  rw [gram_apply, rowSum_apply, rowSum_apply]
  simp only [mulf_apply, h0, h1]
  rfl

/-! ## The diagonal, the denominator and the quotient -/

/-- An integer comparison at an index compares the elements. -/
private theorem cmpi_apply {s : Shape} {w : ℕ} (p : CmpIPredicate) (a b : IVec s w) (i : s.Idx) :
    cmpi p a b i = IntOp.cmpi p (a i) (b i) := rfl
/-- An integer sum at an index adds the elements. -/
private theorem addi_apply {s : Shape} {w : ℕ} (a b : IVec s w) (i : s.Idx) : addi a b i = IntOp.addi (a i) (b i) := rfl

/-- A select on "the two words are equal" is the `if` on their equality. -/
private theorem select_cmpi_eq {w : ℕ} {α : Type} (x y : BitVec w) (A B : α) :
    Scalar.select (IntOp.cmpi .eq x y) A B = if x = y then A else B := by
  by_cases h : x = y
  · subst h
    rw [if_pos rfl]
    show (if BitVec.ofBool (x == x) = 1#1 then A else B) = A
    rw [beq_self_eq_true]
    exact if_pos rfl
  · rw [if_neg h]
    show (if BitVec.ofBool (x == y) = 1#1 then A else B) = B
    rw [beq_eq_false_iff_ne.mpr h]
    exact if_neg (by decide)

/-- The row number the first region's body computes at entry `(r, c)` of its tile. -/
private theorem rowNo0_apply (i : grid0.Coords) (r c : Fin 512) :
    k0_pay7 i (ix2 r c) = BitVec.ofNat 32 (i 0).val * 512#32 + BitVec.ofNat 32 r.val := by
  unfold k0_pay7
  simp only [addi_apply, broadcast_apply]
  rw [iota_single_apply]
  rfl
/-- The row number the second region's body computes at entry `(r, c)` of its tile. -/
private theorem rowNo1_apply (i : grid1.Coords) (r c : Fin 512) :
    k1_pay4 i (ix2 r c) = BitVec.ofNat 32 (i 0).val * 512#32 + BitVec.ofNat 32 r.val := by
  unfold k1_pay4
  simp only [addi_apply, broadcast_apply]
  rw [iota_single_apply]
  rfl

/-- One where the entry's row number is its column number, zero elsewhere: the specification's diagonal at the pair the
    entry stands for. -/
private theorem eye_word_apply (I J : Fin 8) (a b : ℕ) (ha : a = I.val) (hb : b = J.val) (r c : Fin 512) :
    Scalar.select (IntOp.cmpi .eq (BitVec.ofNat 32 a * 512#32 + BitVec.ofNat 32 r.val)
        (IntOp.addi (Scalar.muli (BitVec.ofNat 32 b) 512#32) (BitVec.ofNat 32 c.val))) Spec.one Spec.zero
      = Spec.eye (tile I r) (tile J c) := by
  subst ha hb
  rw [select_cmpi_eq]
  unfold Spec.eye
  exact if_congr (word_eq_iff I J r c) rfl rfl

/-- Entry `(r, c)` of the first region's quotient tile: the distance entry over the specification's denominator. -/
private theorem quot_tile0_apply (i : grid0.Coords) (I J : Fin 8) (hI : (i 0).val = I.val) (hJ : (i 1).val = J.val)
    (v33 : FVec Ideal S512x512 .f32) (x2 : Vec Ideal S512x512 .f32)
    (h2 : ∀ (r c : Fin 512), x2 (ix2 r c) = D (ix2 (tile I r) (tile J c))) (r c : Fin 512) :
    k0_pay1 (F := Ideal) v33 (k0_pay7 i) (col0 i) x2 (ix2 r c)
      = Ideal.div (v33 (ix2 r c)) (Spec.denom D (tile I r) (tile J c)) := by
  unfold k0_pay1
  simp only [divf_apply, addf_apply, select_apply, cmpi_apply, addi_apply, broadcast_apply, rowNo0_apply,
    Ideal.ofBits_def, h2]
  rw [iota_single_apply]
  unfold Spec.denom
  rw [← eye_word_apply I J (i 0).val (i 1).val hI hJ r c]
  rfl

/-! ## The sum over a tile -/

/-- A shape cast keeps the elements, so the sum over the cast is the sum over the operand. -/
private theorem sum_shapeCast {N : Type} [AddCommMonoid N] {s t : Shape} (x : s.Idx → N) (h : s.ShapeCasts t) :
    ∑ j : t.Idx, shapeCast t x h j = ∑ k : s.Idx, x k :=
  Equiv.sum_comp (Shape.reshapeEquiv h) x

/-- The one cell of a one-entry vector cast to `[1, 1, 1]`, extracted: the vector's entry. -/
private theorem extractAt_shapeCast_111 {α : Type} (X : S1.Idx → α) (hc' : S1.ShapeCasts S1x1x1)
    (hp : ∀ a, (![0, 0, 0] : Fin 3 → Nat) a < S1x1x1.size a) :
    extractAt ![0, 0, 0] (shapeCast S1x1x1 X hc') hp = X (ix1 (0 : Fin 1)) := by
  unfold extractAt
  refine shapeCast_apply X hc' _ (ix1 (0 : Fin 1)) ?_
  rw [Shape.rowMajor_val_three, Shape.rowMajor_val_one]
  rfl

/-- The body's sum of a whole tile — the tile cast to one slab, reduced over both tile axes into one cell, the cell
    extracted and spread again — is the double sum over the tile's entries. -/
private theorem tileSum_apply (v : FVec Ideal S512x512 .f32) (hc : S512x512.ShapeCasts S1x512x512)
    (hr : S1x512x512.Reduces [1, 2] S1) (hφ : FKind.Formats .f32) (hacc : (0x00000000#32 : BitVec 32) = 0x00000000#32)
    (hc' : S1.ShapeCasts S1x1x1) (hp : ∀ a, (![0, 0, 0] : Fin 3 → Nat) a < S1x1x1.size a) (y : S1x1.Idx) :
    broadcast S1x1 (extractAt ![0, 0, 0] (shapeCast S1x1x1
        (multiReduction (F := Ideal) .add [1, 2] S1 (shapeCast S1x512x512 v hc) 0x00000000#32 hr hφ hacc) hc') hp) y
      = ∑ r : Fin 512, ∑ c : Fin 512, v (ix2 r c) := by
  rw [broadcast_apply, extractAt_shapeCast_111]
  refine (Ideal.multiReduction_add_total (shapeCast S1x512x512 v hc) 0x00000000#32 hr (fun b => ?_) hφ hacc _).trans ?_
  · match b with
    | ⟨0, _⟩ => rfl
  · rw [sum_shapeCast, sum_idx2]

/-! ## One point's update of each output cell -/

/-- Region 0, first cell: the point adds the tile's quotients. -/
theorem step0_3_apply (i : grid0.Coords) (I J : Fin 8) (hI : (i 0).val = I.val) (hJ : (i 1).val = J.val)
    (x0 x1 : Vec Ideal S512x64 .f32) (x2 : Vec Ideal S512x512 .f32) (prev : Vec Ideal S1x1 .f32)
    (h0 : ∀ (r : Fin 512) (k : Fin 64), x0 (ix2 r k) = M (ix2 (tile I r) k))
    (h1 : ∀ (c : Fin 512) (k : Fin 64), x1 (ix2 c k) = M (ix2 (tile J c) k))
    (h2 : ∀ (r c : Fin 512), x2 (ix2 r c) = D (ix2 (tile I r) (tile J c)))
    (y : S1x1.Idx) :
    step0_3 (F := Ideal) i x0 x1 x2 prev y
      = prev y + ∑ r : Fin 512, ∑ c : Fin 512, Spec.quot M D (tile I r) (tile J c) := by
  unfold step0_3 k0_pay2
  simp only [addf_apply, shapeCast_self]
  rw [tileSum_apply]
  refine congrArg (prev y + ·) ?_
  refine Finset.sum_congr rfl fun r _ => Finset.sum_congr rfl fun c _ => ?_
  rw [quot_tile0_apply D i I J hI hJ _ x2 h2 r c, dist_tile0_apply M I J x0 x1 h0 h1 r c]
  rfl

/-- Region 0, second cell: the point adds the squares of the tile's quotients. -/
theorem step0_4_apply (i : grid0.Coords) (I J : Fin 8) (hI : (i 0).val = I.val) (hJ : (i 1).val = J.val)
    (x0 x1 : Vec Ideal S512x64 .f32) (x2 : Vec Ideal S512x512 .f32) (prev : Vec Ideal S1x1 .f32)
    (h0 : ∀ (r : Fin 512) (k : Fin 64), x0 (ix2 r k) = M (ix2 (tile I r) k))
    (h1 : ∀ (c : Fin 512) (k : Fin 64), x1 (ix2 c k) = M (ix2 (tile J c) k))
    (h2 : ∀ (r c : Fin 512), x2 (ix2 r c) = D (ix2 (tile I r) (tile J c)))
    (y : S1x1.Idx) :
    step0_4 (F := Ideal) i x0 x1 x2 prev y
      = prev y + ∑ r : Fin 512, ∑ c : Fin 512, Spec.quot M D (tile I r) (tile J c) * Spec.quot M D (tile I r) (tile J c) := by
  unfold step0_4 k0_pay3
  simp only [addf_apply, shapeCast_self]
  rw [tileSum_apply]
  refine congrArg (prev y + ·) ?_
  refine Finset.sum_congr rfl fun r _ => Finset.sum_congr rfl fun c _ => ?_
  rw [mulf_apply, quot_tile0_apply D i I J hI hJ _ x2 h2 r c, dist_tile0_apply M I J x0 x1 h0 h1 r c]
  rfl

/-- Region 1: the point adds the tile's squared distortions under the scale the region was handed. -/
theorem step1_4_apply (i : grid1.Coords) (I J : Fin 8) (hI : (i 0).val = I.val) (hJ : (i 1).val = J.val)
    (x0 x1 : Vec Ideal S512x64 .f32) (x2 : Vec Ideal S512x512 .f32) (x3 prev : Vec Ideal S1x1 .f32) (s : EReal)
    (h0 : ∀ (r : Fin 512) (k : Fin 64), x0 (ix2 r k) = M (ix2 (tile I r) k))
    (h1 : ∀ (c : Fin 512) (k : Fin 64), x1 (ix2 c k) = M (ix2 (tile J c) k))
    (h2 : ∀ (r c : Fin 512), x2 (ix2 r c) = D (ix2 (tile I r) (tile J c)))
    (h3 : ∀ z : S1x1.Idx, x3 z = s)
    (y : S1x1.Idx) :
    step1_4 (F := Ideal) i x0 x1 x2 x3 prev y
      = prev y + ∑ r : Fin 512, ∑ c : Fin 512, Spec.term M D s (tile I r) (tile J c) := by
  unfold step1_4 k1_pay1
  simp only [addf_apply, shapeCast_self]
  rw [tileSum_apply]
  refine congrArg (prev y + ·) ?_
  refine Finset.sum_congr rfl fun r _ => Finset.sum_congr rfl fun c _ => ?_
  simp only [divf_apply, mulf_apply, subf_apply, addf_apply, select_apply, cmpi_apply, addi_apply, broadcast_apply,
    rowNo1_apply, Ideal.ofBits_def, h2]
  rw [iota_single_apply, dist_tile1_apply M I J x0 x1 h0 h1 r c]
  unfold Spec.term Spec.denom
  rw [← eye_word_apply I J (i 0).val (i 1).val hI hJ r c]
  have hs : extractAt ![0, 0] x3 inpos_S1x1_p0_0 = s := h3 _
  rw [hs]
  rfl

/-- The cells start from the zero the first point stores. -/
theorem pay_zero0_3 (y : S1x1.Idx) : k0_pay4 (F := Ideal) y = 0 := by
  unfold k0_pay4
  exact Ideal.ofBits_zero_f32
theorem pay_zero0_4 (y : S1x1.Idx) : k0_pay5 (F := Ideal) y = 0 := by
  unfold k0_pay5
  exact Ideal.ofBits_zero_f32
theorem pay_zero1_4 (y : S1x1.Idx) : k1_pay2 (F := Ideal) y = 0 := by
  unfold k1_pay2
  exact Ideal.ofBits_zero_f32

end Cert.KernelIdeal.Hand

end
-- ==== Proof.Regroup.lean ====
/-
  A sum over all pairs of 4096 × 4096 is the sum, over the 8 × 8 tiles in row-major order, of the sums over
  each tile's 512 × 512 pairs: a re-indexing in any commutative monoid.
-/
import Mathlib.Algebra.BigOperators.Fin
import Mathlib.Algebra.BigOperators.Group.Finset.Basic
import Mathlib.Algebra.BigOperators.Group.Finset.Sigma
import Mathlib.Data.Fintype.BigOperators
import Mathlib.Logic.Equiv.Fin.Basic

open scoped BigOperators

namespace Cert.Regroup

/-- Row (column) `r` of tile-row (tile-column) `I`. -/
def at8 (I : ℕ) (hI : I < 8) (r : Fin 512) : Fin 4096 := ⟨512 * I + r.val, by have := r.isLt; omega⟩

/-- The index `512 * I + r` depends on the tile number `I` only, not on the proof that `I < 8`. -/
theorem at8_congr {I I' : ℕ} (h : I = I') (hI : I < 8) (hI' : I' < 8) (r : Fin 512) :
    at8 I hI r = at8 I' hI' r := by
  subst h; rfl

/-- `(I, r) ↦ 512 * I + r` is the bijection `Fin 8 × Fin 512 ≃ Fin 4096` (quotient and remainder by 512). -/
def tileEquiv : Fin 8 × Fin 512 ≃ Fin 4096 where
  toFun x := at8 x.1.val x.1.isLt x.2
  invFun R := (⟨R.val / 512, by have := R.isLt; omega⟩, ⟨R.val % 512, by omega⟩)
  left_inv x := by
    obtain ⟨⟨I, hI⟩, ⟨r, hr⟩⟩ := x
    simp only [at8, Prod.mk.injEq, Fin.mk.injEq]
    constructor <;> omega
  right_inv R := by
    obtain ⟨R, hR⟩ := R
    simp only [at8, Fin.mk.injEq]
    omega

/-- A sum over `Fin 4096` split into 8 consecutive blocks of 512. -/
theorem sum_at8 {A : Type*} [AddCommMonoid A] (g : Fin 4096 → A) :
    ∑ I : Fin 8, ∑ r : Fin 512, g (at8 I.val I.isLt r) = ∑ R : Fin 4096, g R := by
  rw [← Fintype.sum_prod_type']
  exact Fintype.sum_equiv tileEquiv _ _ (fun _ => rfl)

/-- `(I, J) ↦ 8 * I + J` is the bijection `Fin 8 × Fin 8 ≃ Fin 64` (row-major tile numbering). -/
def tileNumEquiv : Fin 8 × Fin 8 ≃ Fin 64 where
  toFun x := ⟨8 * x.1.val + x.2.val, by have := x.1.isLt; have := x.2.isLt; omega⟩
  invFun t := (⟨t.val / 8, by have := t.isLt; omega⟩, ⟨t.val % 8, by omega⟩)
  left_inv x := by
    obtain ⟨⟨I, hI⟩, ⟨J, hJ⟩⟩ := x
    simp only [Prod.mk.injEq, Fin.mk.injEq]
    constructor <;> omega
  right_inv t := by
    obtain ⟨t, ht⟩ := t
    simp only [Fin.mk.injEq]
    omega

/-- A sum over the 64 tile numbers is a double sum over tile-row and tile-column. -/
theorem sum_tileNum {A : Type*} [AddCommMonoid A] (g : Fin 64 → A) :
    ∑ t : Fin 64, g t = ∑ I : Fin 8, ∑ J : Fin 8, g (tileNumEquiv (I, J)) := by
  rw [← Fintype.sum_prod_type']
  exact (Fintype.sum_equiv tileNumEquiv _ _ (fun _ => rfl)).symm

theorem sum_tiles {A : Type*} [AddCommMonoid A] (f : Fin 4096 → Fin 4096 → A) :
    ∑ t : Fin 64, ∑ r : Fin 512, ∑ c : Fin 512,
        f (at8 (t.val / 8) (by have := t.isLt; omega) r) (at8 (t.val % 8) (by omega) c)
      = ∑ R : Fin 4096, ∑ C : Fin 4096, f R C := by
  -- right side: split rows, then columns, into blocks
  rw [← sum_at8 (fun R => ∑ C : Fin 4096, f R C)]
  simp_rw [← sum_at8 (fun C => f _ C)]
  -- left side: tile number ↦ (tile-row, tile-column)
  rw [sum_tileNum]
  refine Finset.sum_congr rfl (fun I _ => ?_)
  -- bring the tile-column sum inside the row sum
  rw [Finset.sum_comm]
  refine Finset.sum_congr rfl (fun r _ => ?_)
  refine Finset.sum_congr rfl (fun J _ => ?_)
  refine Finset.sum_congr rfl (fun c _ => ?_)
  have hI : (tileNumEquiv (I, J)).val / 8 = I.val := by
    show (8 * I.val + J.val) / 8 = I.val
    have := J.isLt; omega
  have hJ : (tileNumEquiv (I, J)).val % 8 = J.val := by
    show (8 * I.val + J.val) % 8 = J.val
    have := J.isLt; omega
  rw [at8_congr hI _ I.isLt r, at8_congr hJ _ J.isLt c]

end Cert.Regroup
-- ==== Proof.KernelValue.lean ====
/-
  What the kernel's program returns, over the extended reals: the loss.

  Each output cell after the last point is the sum over the 64 tiles of the tile's sum, that is the sum over all
  4096 × 4096 pairs; the host's two quotients are the specification's.
-/
import proofs.«129287_j45200235823192_1_alg».proof.Proof.Outs
import proofs.«129287_j45200235823192_1_alg».proof.Proof.PointValue
import proofs.«129287_j45200235823192_1_alg».proof.Proof.Regroup
import Idealize.ShloMosaic.Lib.StableHlo.Run

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## Sums over the tiles in grid order -/

section Tiles

variable (f : Fin 4096 → Fin 4096 → EReal)

/-- The sum of `f` over the tile the `t`-th grid point works on (the 8 × 8 tiles in row-major order: tile-row
    `t / 8`, tile-column `t % 8`; zero past the grid). -/
def tileSum (t : ℕ) : EReal :=
  if h : t < 64 then ∑ r : Fin 512, ∑ q : Fin 512, f (tile ⟨t / 8, by omega⟩ r) (tile ⟨t % 8, by omega⟩ q) else 0

/-- All 64 tiles together are all pairs. -/
theorem sum_tileSum : ∑ t ∈ Finset.range 64, tileSum f t = ∑ R : Fin 4096, ∑ C : Fin 4096, f R C := by
  rw [← Fin.sum_univ_eq_sum_range (tileSum f) 64, ← Regroup.sum_tiles f]
  refine Finset.sum_congr rfl fun t _ => ?_
  unfold tileSum
  rw [dif_pos t.isLt]
  rfl

/-- A sequence that starts at its first term and grows by one term per step is the running sum of the terms. -/
theorem run_eq_sum (a g : ℕ → EReal) (h0 : a 0 = g 0) (hs : ∀ n, n + 1 < 64 → a (n + 1) = a n + g (n + 1)) :
    ∀ n, n < 64 → a n = ∑ t ∈ Finset.range (n + 1), g t
  | 0, _ => by rw [Finset.sum_range_one]; exact h0
  | n + 1, h => by rw [Finset.sum_range_succ, hs n h, run_eq_sum a g h0 hs n (by omega)]

end Tiles

/-! ## One-cell arrays -/

/-- Every coordinate of an index into a one-cell array is zero. -/
theorem cell_coord (i : S1x1.Idx) (a : Fin 2) : (i a : ℕ) = 0 :=
  match a with
  | ⟨0, _⟩ => Nat.lt_one_iff.mp (i 0).isLt
  | ⟨1, _⟩ => Nat.lt_one_iff.mp (i 1).isLt

/-- A (1, 1) array reshaped to a scalar keeps its one entry, -/
theorem cast_cell_to_scalar (x : S1x1.Idx → EReal) (j : S_.Idx) :
    shapeCast S_ x shapeCasts_S1x1_S_ j = x (ix2 0 0) :=
  shapeCast_apply x _ j (ix2 0 0) (by
    have h1 : (S1x1.rowMajor (ix2 0 0)).val < 1 := (S1x1.rowMajor (ix2 0 0)).isLt
    have h2 : (S_.rowMajor j).val < 1 := (S_.rowMajor j).isLt
    omega)

/-- and a scalar reshaped to a (1, 1) array likewise. -/
theorem cast_scalar_to_cell (x : S_.Idx → EReal) (j : S1x1.Idx) :
    shapeCast S1x1 x shapeCasts_S_S1x1 j = x ix0 :=
  shapeCast_apply x _ j ix0 (by
    have h1 : (S_.rowMajor ix0).val < 1 := (S_.rowMajor ix0).isLt
    have h2 : (S1x1.rowMajor j).val < 1 := (S1x1.rowMajor j).isLt
    omega)

/-! ## The host's operations: the scale handed to the second region, and the last quotient -/

/-- After region 0 its first result array holds what the region left there, -/
theorem val_V1_v0_0 (c : Dev nD) :
    Gen.V1 m (outs1 m) c (Proc.devRef .tc main_v0_0) = (dat0 (Ve0 m) c).arrAt 3 cfg0.N :=
  (Function.update_of_ne (StableHlo.devRef_ne_of_ne (by decide) : (Proc.devRef .tc main_v0_0 : DevRef τ sig) ≠ Proc.devRef .tc main_v0_1) ..).trans
    (Function.update_self ..)

/-- and its second likewise. -/
theorem val_V1_v0_1 (c : Dev nD) :
    Gen.V1 m (outs1 m) c (Proc.devRef .tc main_v0_1) = (dat0 (Ve0 m) c).arrAt 4 cfg0.N :=
  Function.update_self ..

/-- The scale array the second region reads is the host's quotient of the first region's two cells. -/
theorem scale_arr (c : Dev nD) :
    (Ve2 m c main_v4 : S1x1.Idx → EReal)
      = shapeCast S1x1 (Host.divf (F := Ideal) (φ := .f32) (shapeCast S_ ((dat0 (Ve0 m) c).arrAt 3 cfg0.N : S1x1.Idx → EReal) shapeCasts_S1x1_S_)
          (shapeCast S_ ((dat0 (Ve0 m) c).arrAt 4 cfg0.N : S1x1.Idx → EReal) shapeCasts_S1x1_S_)) shapeCasts_S_S1x1 := by
  dsimp only [Ve2, Gen.V2, Gen.hostOps1]
  after_results
  rw [val_V1_v0_0, val_V1_v0_1]
  rfl

/-- After region 1 its result array holds what the region left there. -/
theorem val_V3_v5 (c : Dev nD) :
    Gen.V3 m (outs m) c (Proc.devRef .tc main_v5) = (dat1 (Ve2 m) c).arrAt 4 cfg1.N :=
  Function.update_self ..

/-- The program's result is the host's quotient of the second region's cell by the number of ordered pairs. -/
theorem host_tail (c : Dev nD) :
    (Gen.V4 m (outs m) c main_v7 : S_.Idx → EReal)
      = Host.divf (F := Ideal) (shapeCast S_ ((dat1 (Ve2 m) c).arrAt 4 cfg1.N) shapeCasts_S1x1_S_) (constant (F := Ideal) S_ .f32 0x4B7FF000#32) := by
  dsimp only [Gen.V4, Gen.hostOps2]
  after_results
  rw [val_V3_v5]
  rfl

section Regions

-- the core's buffer contents when a region is entered
variable (V : (c : Dev nD) → (b : Ref sig .tc) → Buf (Elt Ideal) ((c : Thread nD τ).loc b))

/-- The points table, the target distances and the scale as a region finds them. -/
abbrev pts (c : Dev nD) : Spec.SM.Idx → EReal := V c main_arg0
abbrev dst (c : Dev nD) : Spec.SD.Idx → EReal := V c main_arg1
abbrev scl (c : Dev nD) : EReal := (V c main_v4 : S1x1.Idx → EReal) (ix2 0 0)

/-! ## Region 0

Each output is a (1, 1) array whose window is written back at the last grid point only; that point's block starts at
the origin with extent (1, 1), so it is the whole array, and the array ends holding what the fold left in the staging
buffer after point 63.  The input blocks at point `t` are rows `512 (t / 8) …` and rows `512 (t % 8) …` of the points
table and the matching tile of the target distances, so the fold after point `n` is the sum over the tiles up to `n`. -/

/-- The last point of region 0's grid. -/
abbrev tLast0 : Fin cfg0.N := ⟨63, by decide⟩

/-- At the last point the first cell's block starts at the origin and has extent one along both axes, -/
theorem rect0_3 : ∀ a : Fin 2, win0_3.index tLast0 a * win0_3.size a = 0 ∧ win0_3.xsize (grid0.coords tLast0) a = 1 := by
  decide +kernel

theorem off0_3 : (fun a => win0_3.index tLast0 a * main_v0_0.ty.shape.size a) = fun _ => 0 :=
  funext fun a => (rect0_3 a).1

/-- so it covers the array. -/
theorem cover0_3 (i : S1x1.Idx) : i ∈ ((cfg0.win 3).blk tLast0).view.set := by
  show i ∈ ((View.whole main_v0_0).slice (win0_3.rect tLast0)).set
  rw [View.set_slice_whole, Rect.mem_set_unit]
  intro a
  show win0_3.index tLast0 a * win0_3.size a ≤ (i a : ℕ)
    ∧ (i a : ℕ) < win0_3.index tLast0 a * win0_3.size a + win0_3.xsize (grid0.coords tLast0) a
  rw [(rect0_3 a).1, (rect0_3 a).2, cell_coord i a]
  omega

/-- The one write-back of the first cell writes the fold after point 63. -/
theorem flushed0_3_eq (c : Dev nD) (t : Fin cfg0.N) (hf : (cfg0.win 3).flush t = true) :
    (dat0 V c).flushed 3 t = ((cfg0.win 3).blk t).view.read (Elt Ideal) (acc0_3 V c 63) := by
  have hN : cfg0.N = 64 := N_0
  have h63 : t.val = 63 := by have := (flush0_3 t).mp hf; have := t.isLt; omega
  obtain rfl : t = tLast0 := Fin.ext h63
  show (cfg0.win 3).cut (grid0.coords tLast0) ((dat0 V c).after 3 tLast0) = _
  dsimp only [dat0]
  exact (Memref.read_access_unit_zero (Elt Ideal) main_v0_0 off0_3 (fun a => by rw [congrFun off0_3 a]; simp) (acc0_3 V c 63)).symm

/-- Region 0 leaves the first fold after point 63 in its first result array. -/
theorem final0_3 (c : Dev nD) : (dat0 V c).arrAt 3 cfg0.N = acc0_3 V c 63 :=
  (dat0 V c).arrAt_eq_of_cover 3 (acc0_3 V c 63) (flushed0_3_eq V c) fun i => ⟨tLast0, (flush0_3 tLast0).mpr rfl, cover0_3 i⟩

/-- The second cell: the same block at the last point, -/
theorem rect0_4 : ∀ a : Fin 2, win0_4.index tLast0 a * win0_4.size a = 0 ∧ win0_4.xsize (grid0.coords tLast0) a = 1 := by
  decide +kernel

theorem off0_4 : (fun a => win0_4.index tLast0 a * main_v0_1.ty.shape.size a) = fun _ => 0 :=
  funext fun a => (rect0_4 a).1

theorem cover0_4 (i : S1x1.Idx) : i ∈ ((cfg0.win 4).blk tLast0).view.set := by
  show i ∈ ((View.whole main_v0_1).slice (win0_4.rect tLast0)).set
  rw [View.set_slice_whole, Rect.mem_set_unit]
  intro a
  show win0_4.index tLast0 a * win0_4.size a ≤ (i a : ℕ)
    ∧ (i a : ℕ) < win0_4.index tLast0 a * win0_4.size a + win0_4.xsize (grid0.coords tLast0) a
  rw [(rect0_4 a).1, (rect0_4 a).2, cell_coord i a]
  omega

/-- the same one write-back, -/
theorem flushed0_4_eq (c : Dev nD) (t : Fin cfg0.N) (hf : (cfg0.win 4).flush t = true) :
    (dat0 V c).flushed 4 t = ((cfg0.win 4).blk t).view.read (Elt Ideal) (acc0_4 V c 63) := by
  have hN : cfg0.N = 64 := N_0
  have h63 : t.val = 63 := by have := (flush0_4 t).mp hf; have := t.isLt; omega
  obtain rfl : t = tLast0 := Fin.ext h63
  show (cfg0.win 4).cut (grid0.coords tLast0) ((dat0 V c).after 4 tLast0) = _
  dsimp only [dat0]
  exact (Memref.read_access_unit_zero (Elt Ideal) main_v0_1 off0_4 (fun a => by rw [congrFun off0_4 a]; simp) (acc0_4 V c 63)).symm

/-- and the second fold after point 63 in the second result array. -/
theorem final0_4 (c : Dev nD) : (dat0 V c).arrAt 4 cfg0.N = acc0_4 V c 63 :=
  (dat0 V c).arrAt_eq_of_cover 4 (acc0_4 V c 63) (flushed0_4_eq V c) fun i => ⟨tLast0, (flush0_4 tLast0).mpr rfl, cover0_4 i⟩

/-- Where each input window's block sits at point `t`: tile-row `t / 8`, tile-column `t % 8`. -/
theorem idx0 (t : Fin cfg0.N) :
    win0_0.index t 0 = t.val / 8 ∧ win0_0.index t 1 = 0
    ∧ win0_1.index t 0 = t.val % 8 ∧ win0_1.index t 1 = 0
    ∧ win0_2.index t 0 = t.val / 8 ∧ win0_2.index t 1 = t.val % 8 :=
  (by decide +kernel : ∀ t : Fin grid0.N,
    win0_0.index t 0 = t.val / 8 ∧ win0_0.index t 1 = 0
    ∧ win0_1.index t 0 = t.val % 8 ∧ win0_1.index t 1 = 0
    ∧ win0_2.index t 0 = t.val / 8 ∧ win0_2.index t 1 = t.val % 8) t

/-- The grid's points in row-major order. -/
theorem coords0 (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t

/-- Window 0's block is the tile's rows of the points table, -/
theorem blk0_0 (c : Dev nD) (t : Fin cfg0.N) (I : Fin 8) (hI : I.val = t.val / 8) (r : Fin 512) (k : Fin 64) :
    (iblk0 V c 0 t : Vec Ideal S512x64 .f32) (ix2 r k) = (V c main_arg0 : Spec.SM.Idx → EReal) (ix2 (tile I r) k) := by
  unfold iblk0
  rw [View.read_apply]
  show V c main_arg0 _ = V c main_arg0 _
  refine congrArg (V c main_arg0) (Shape.idx_ext₂ ?_ ?_)
  · show win0_0.index t 0 * 512 + 1 * r.val = 512 * I.val + r.val
    rw [(idx0 t).1, hI]; omega
  · show win0_0.index t 1 * 64 + 1 * k.val = k.val
    rw [(idx0 t).2.1]; omega

/-- window 1's the tile's columns, as rows of the same table, -/
theorem blk0_1 (c : Dev nD) (t : Fin cfg0.N) (J : Fin 8) (hJ : J.val = t.val % 8) (q : Fin 512) (k : Fin 64) :
    (iblk0 V c 1 t : Vec Ideal S512x64 .f32) (ix2 q k) = (V c main_arg0 : Spec.SM.Idx → EReal) (ix2 (tile J q) k) := by
  unfold iblk0
  rw [View.read_apply]
  show V c main_arg0 _ = V c main_arg0 _
  refine congrArg (V c main_arg0) (Shape.idx_ext₂ ?_ ?_)
  · show win0_1.index t 0 * 512 + 1 * q.val = 512 * J.val + q.val
    rw [(idx0 t).2.2.1, hJ]; omega
  · show win0_1.index t 1 * 64 + 1 * k.val = k.val
    rw [(idx0 t).2.2.2.1]; omega

/-- and window 2's the tile of the target distances. -/
theorem blk0_2 (c : Dev nD) (t : Fin cfg0.N) (I J : Fin 8) (hI : I.val = t.val / 8) (hJ : J.val = t.val % 8) (r q : Fin 512) :
    (iblk0 V c 2 t : Vec Ideal S512x512 .f32) (ix2 r q) = (V c main_arg1 : Spec.SD.Idx → EReal) (ix2 (tile I r) (tile J q)) := by
  unfold iblk0
  rw [View.read_apply]
  show V c main_arg1 _ = V c main_arg1 _
  refine congrArg (V c main_arg1) (Shape.idx_ext₂ ?_ ?_)
  · show win0_2.index t 0 * 512 + 1 * r.val = 512 * I.val + r.val
    rw [(idx0 t).2.2.2.2.1, hI]; omega
  · show win0_2.index t 1 * 512 + 1 * q.val = 512 * J.val + q.val
    rw [(idx0 t).2.2.2.2.2, hJ]; omega

/-- Point `t` adds its tile's quotients to the first cell, -/
theorem point0_3 (c : Dev nD) (t : Fin cfg0.N) (prev : Vec Ideal S1x1 .f32) (y : S1x1.Idx) :
    step0_3 (F := Ideal) (grid0.coords t) (iblk0 V c 0 t) (iblk0 V c 1 t) (iblk0 V c 2 t) prev y
      = prev y + tileSum (Spec.quot (pts V c) (dst V c)) t.val := by
  have hN : cfg0.N = 64 := N_0
  have ht : t.val < 64 := hN ▸ t.isLt
  unfold tileSum
  rw [dif_pos ht]
  exact step0_3_apply (pts V c) (dst V c) (grid0.coords t) ⟨t.val / 8, by omega⟩ ⟨t.val % 8, by omega⟩ (coords0 t).1 (coords0 t).2
    (iblk0 V c 0 t) (iblk0 V c 1 t) (iblk0 V c 2 t) prev
    (fun r k => blk0_0 V c t ⟨t.val / 8, by omega⟩ rfl r k) (fun q k => blk0_1 V c t ⟨t.val % 8, by omega⟩ rfl q k)
    (fun r q => blk0_2 V c t ⟨t.val / 8, by omega⟩ ⟨t.val % 8, by omega⟩ rfl rfl r q) y

/-- so the first cell after point `n` is the sum of the quotients over the tiles up to `n`; -/
theorem acc0_3_eq (c : Dev nD) (y : S1x1.Idx) (n : ℕ) (hn : n < 64) :
    acc0_3 V c n y = ∑ t ∈ Finset.range (n + 1), tileSum (Spec.quot (pts V c) (dst V c)) t := by
  have hN : cfg0.N = 64 := N_0
  refine run_eq_sum (fun n => acc0_3 V c n y) _ ?_ (fun n h => ?_) n hn
  · show acc0_3 V c 0 y = _
    rw [acc0_3, dif_pos (by omega : 0 < cfg0.N), point0_3, pay_zero0_3, zero_add]
  · show acc0_3 V c (n + 1) y = acc0_3 V c n y + _
    rw [acc0_3, dif_pos (by omega : n + 1 < cfg0.N), point0_3]

/-- and its squared quotients to the second, -/
theorem point0_4 (c : Dev nD) (t : Fin cfg0.N) (prev : Vec Ideal S1x1 .f32) (y : S1x1.Idx) :
    step0_4 (F := Ideal) (grid0.coords t) (iblk0 V c 0 t) (iblk0 V c 1 t) (iblk0 V c 2 t) prev y
      = prev y + tileSum (fun R C => Spec.quot (pts V c) (dst V c) R C * Spec.quot (pts V c) (dst V c) R C) t.val := by
  have hN : cfg0.N = 64 := N_0
  have ht : t.val < 64 := hN ▸ t.isLt
  unfold tileSum
  rw [dif_pos ht]
  exact step0_4_apply (pts V c) (dst V c) (grid0.coords t) ⟨t.val / 8, by omega⟩ ⟨t.val % 8, by omega⟩ (coords0 t).1 (coords0 t).2
    (iblk0 V c 0 t) (iblk0 V c 1 t) (iblk0 V c 2 t) prev
    (fun r k => blk0_0 V c t ⟨t.val / 8, by omega⟩ rfl r k) (fun q k => blk0_1 V c t ⟨t.val % 8, by omega⟩ rfl q k)
    (fun r q => blk0_2 V c t ⟨t.val / 8, by omega⟩ ⟨t.val % 8, by omega⟩ rfl rfl r q) y

/-- so the second cell after point `n` is the sum of the squared quotients over the tiles up to `n`. -/
theorem acc0_4_eq (c : Dev nD) (y : S1x1.Idx) (n : ℕ) (hn : n < 64) :
    acc0_4 V c n y
      = ∑ t ∈ Finset.range (n + 1), tileSum (fun R C => Spec.quot (pts V c) (dst V c) R C * Spec.quot (pts V c) (dst V c) R C) t := by
  have hN : cfg0.N = 64 := N_0
  refine run_eq_sum (fun n => acc0_4 V c n y) _ ?_ (fun n h => ?_) n hn
  · show acc0_4 V c 0 y = _
    rw [acc0_4, dif_pos (by omega : 0 < cfg0.N), point0_4, pay_zero0_4, zero_add]
  · show acc0_4 V c (n + 1) y = acc0_4 V c n y + _
    rw [acc0_4, dif_pos (by omega : n + 1 < cfg0.N), point0_4]

/-! ## Region 1

The same grid and the same three input windows, a fourth window that is the whole one-cell scale array at every
point, and one output cell written back once. -/

/-- The last point of region 1's grid. -/
abbrev tLast1 : Fin cfg1.N := ⟨63, by decide⟩

/-- At the last point the cell's block starts at the origin and has extent one along both axes, -/
theorem rect1_4 : ∀ a : Fin 2, win1_4.index tLast1 a * win1_4.size a = 0 ∧ win1_4.xsize (grid1.coords tLast1) a = 1 := by
  decide +kernel

theorem off1_4 : (fun a => win1_4.index tLast1 a * main_v5.ty.shape.size a) = fun _ => 0 :=
  funext fun a => (rect1_4 a).1

/-- so it covers the array. -/
theorem cover1_4 (i : S1x1.Idx) : i ∈ ((cfg1.win 4).blk tLast1).view.set := by
  show i ∈ ((View.whole main_v5).slice (win1_4.rect tLast1)).set
  rw [View.set_slice_whole, Rect.mem_set_unit]
  intro a
  show win1_4.index tLast1 a * win1_4.size a ≤ (i a : ℕ)
    ∧ (i a : ℕ) < win1_4.index tLast1 a * win1_4.size a + win1_4.xsize (grid1.coords tLast1) a
  rw [(rect1_4 a).1, (rect1_4 a).2, cell_coord i a]
  omega

/-- The one write-back writes the fold after point 63. -/
theorem flushed1_4_eq (c : Dev nD) (t : Fin cfg1.N) (hf : (cfg1.win 4).flush t = true) :
    (dat1 V c).flushed 4 t = ((cfg1.win 4).blk t).view.read (Elt Ideal) (acc1_4 V c 63) := by
  have hN : cfg1.N = 64 := N_1
  have h63 : t.val = 63 := by have := (flush1_4 t).mp hf; have := t.isLt; omega
  obtain rfl : t = tLast1 := Fin.ext h63
  show (cfg1.win 4).cut (grid1.coords tLast1) ((dat1 V c).after 4 tLast1) = _
  dsimp only [dat1]
  exact (Memref.read_access_unit_zero (Elt Ideal) main_v5 off1_4 (fun a => by rw [congrFun off1_4 a]; simp) (acc1_4 V c 63)).symm

/-- Region 1 leaves the fold after point 63 in its result array. -/
theorem final1_4 (c : Dev nD) : (dat1 V c).arrAt 4 cfg1.N = acc1_4 V c 63 :=
  (dat1 V c).arrAt_eq_of_cover 4 (acc1_4 V c 63) (flushed1_4_eq V c) fun i => ⟨tLast1, (flush1_4 tLast1).mpr rfl, cover1_4 i⟩

/-- Where each input window's block sits at point `t`; the scale's window stays at the origin. -/
theorem idx1 (t : Fin cfg1.N) :
    win1_0.index t 0 = t.val / 8 ∧ win1_0.index t 1 = 0
    ∧ win1_1.index t 0 = t.val % 8 ∧ win1_1.index t 1 = 0
    ∧ win1_2.index t 0 = t.val / 8 ∧ win1_2.index t 1 = t.val % 8
    ∧ win1_3.index t 0 = 0 ∧ win1_3.index t 1 = 0 :=
  (by decide +kernel : ∀ t : Fin grid1.N,
    win1_0.index t 0 = t.val / 8 ∧ win1_0.index t 1 = 0
    ∧ win1_1.index t 0 = t.val % 8 ∧ win1_1.index t 1 = 0
    ∧ win1_2.index t 0 = t.val / 8 ∧ win1_2.index t 1 = t.val % 8
    ∧ win1_3.index t 0 = 0 ∧ win1_3.index t 1 = 0) t

/-- The grid's points in row-major order. -/
theorem coords1 (t : Fin cfg1.N) : (grid1.coords t 0).val = t.val / 8 ∧ (grid1.coords t 1).val = t.val % 8 :=
  (by decide +kernel : ∀ t : Fin grid1.N, (grid1.coords t 0).val = t.val / 8 ∧ (grid1.coords t 1).val = t.val % 8) t

/-- Window 0's block is the tile's rows of the points table, -/
theorem blk1_0 (c : Dev nD) (t : Fin cfg1.N) (I : Fin 8) (hI : I.val = t.val / 8) (r : Fin 512) (k : Fin 64) :
    (iblk1 V c 0 t : Vec Ideal S512x64 .f32) (ix2 r k) = (V c main_arg0 : Spec.SM.Idx → EReal) (ix2 (tile I r) k) := by
  unfold iblk1
  rw [View.read_apply]
  show V c main_arg0 _ = V c main_arg0 _
  refine congrArg (V c main_arg0) (Shape.idx_ext₂ ?_ ?_)
  · show win1_0.index t 0 * 512 + 1 * r.val = 512 * I.val + r.val
    rw [(idx1 t).1, hI]; omega
  · show win1_0.index t 1 * 64 + 1 * k.val = k.val
    rw [(idx1 t).2.1]; omega

/-- window 1's the tile's columns, as rows of the same table, -/
theorem blk1_1 (c : Dev nD) (t : Fin cfg1.N) (J : Fin 8) (hJ : J.val = t.val % 8) (q : Fin 512) (k : Fin 64) :
    (iblk1 V c 1 t : Vec Ideal S512x64 .f32) (ix2 q k) = (V c main_arg0 : Spec.SM.Idx → EReal) (ix2 (tile J q) k) := by
  unfold iblk1
  rw [View.read_apply]
  show V c main_arg0 _ = V c main_arg0 _
  refine congrArg (V c main_arg0) (Shape.idx_ext₂ ?_ ?_)
  · show win1_1.index t 0 * 512 + 1 * q.val = 512 * J.val + q.val
    rw [(idx1 t).2.2.1, hJ]; omega
  · show win1_1.index t 1 * 64 + 1 * k.val = k.val
    rw [(idx1 t).2.2.2.1]; omega

/-- window 2's the tile of the target distances, -/
theorem blk1_2 (c : Dev nD) (t : Fin cfg1.N) (I J : Fin 8) (hI : I.val = t.val / 8) (hJ : J.val = t.val % 8) (r q : Fin 512) :
    (iblk1 V c 2 t : Vec Ideal S512x512 .f32) (ix2 r q) = (V c main_arg1 : Spec.SD.Idx → EReal) (ix2 (tile I r) (tile J q)) := by
  unfold iblk1
  rw [View.read_apply]
  show V c main_arg1 _ = V c main_arg1 _
  refine congrArg (V c main_arg1) (Shape.idx_ext₂ ?_ ?_)
  · show win1_2.index t 0 * 512 + 1 * r.val = 512 * I.val + r.val
    rw [(idx1 t).2.2.2.2.1, hI]; omega
  · show win1_2.index t 1 * 512 + 1 * q.val = 512 * J.val + q.val
    rw [(idx1 t).2.2.2.2.2.1, hJ]; omega

/-- and window 3's the one cell of the scale array. -/
theorem blk1_3 (c : Dev nD) (t : Fin cfg1.N) (z : S1x1.Idx) :
    (iblk1 V c 3 t : Vec Ideal S1x1 .f32) z = scl V c := by
  unfold iblk1
  rw [View.read_apply]
  show V c main_v4 _ = V c main_v4 _
  refine congrArg (V c main_v4) (Shape.idx_ext₂ ?_ ?_)
  · show win1_3.index t 0 * 1 + 1 * (z 0).val = 0
    rw [(idx1 t).2.2.2.2.2.2.1, cell_coord z 0]
  · show win1_3.index t 1 * 1 + 1 * (z 1).val = 0
    rw [(idx1 t).2.2.2.2.2.2.2, cell_coord z 1]

/-- Point `t` adds its tile's squared distortions, under the scale the region was handed, to the cell, -/
theorem point1_4 (c : Dev nD) (t : Fin cfg1.N) (prev : Vec Ideal S1x1 .f32) (y : S1x1.Idx) :
    step1_4 (F := Ideal) (grid1.coords t) (iblk1 V c 0 t) (iblk1 V c 1 t) (iblk1 V c 2 t) (iblk1 V c 3 t) prev y
      = prev y + tileSum (Spec.term (pts V c) (dst V c) (scl V c)) t.val := by
  have hN : cfg1.N = 64 := N_1
  have ht : t.val < 64 := hN ▸ t.isLt
  unfold tileSum
  rw [dif_pos ht]
  exact step1_4_apply (pts V c) (dst V c) (grid1.coords t) ⟨t.val / 8, by omega⟩ ⟨t.val % 8, by omega⟩ (coords1 t).1 (coords1 t).2
    (iblk1 V c 0 t) (iblk1 V c 1 t) (iblk1 V c 2 t) (iblk1 V c 3 t) prev (scl V c)
    (fun r k => blk1_0 V c t ⟨t.val / 8, by omega⟩ rfl r k) (fun q k => blk1_1 V c t ⟨t.val % 8, by omega⟩ rfl q k)
    (fun r q => blk1_2 V c t ⟨t.val / 8, by omega⟩ ⟨t.val % 8, by omega⟩ rfl rfl r q) (fun z => blk1_3 V c t z) y

/-- so the cell after point `n` is the sum of the squared distortions over the tiles up to `n`. -/
theorem acc1_4_eq (c : Dev nD) (y : S1x1.Idx) (n : ℕ) (hn : n < 64) :
    acc1_4 V c n y = ∑ t ∈ Finset.range (n + 1), tileSum (Spec.term (pts V c) (dst V c) (scl V c)) t := by
  have hN : cfg1.N = 64 := N_1
  refine run_eq_sum (fun n => acc1_4 V c n y) _ ?_ (fun n h => ?_) n hn
  · show acc1_4 V c 0 y = _
    rw [acc1_4, dif_pos (by omega : 0 < cfg1.N), point1_4, pay_zero1_4, zero_add]
  · show acc1_4 V c (n + 1) y = acc1_4 V c n y + _
    rw [acc1_4, dif_pos (by omega : n + 1 < cfg1.N), point1_4]

end Regions

/-! ## The result -/

/-- The program's result buffer at the end of @main holds the loss of the two argument arrays. -/
theorem final_value (c : Dev nD) :
    Gen.V4 m (outs m) c main_v7
      = fun _ => Spec.loss (m ((c : Thread nD τ).loc main_arg0)) (m ((c : Thread nD τ).loc main_arg1)) := by
  funext j
  -- region 1, like region 0, is entered with the two tables as launched: no item before it writes an argument
  have hM2 : pts (Ve2 m) c = m ((c : Thread nD τ).loc main_arg0) :=
    (Gen.V2_of m (outs1 m) c main_arg0 (by decide)).trans (Gen.V1_of m (outs1 m) c main_arg0 (by decide))
  have hD2 : dst (Ve2 m) c = m ((c : Thread nD τ).loc main_arg1) :=
    (Gen.V2_of m (outs1 m) c main_arg1 (by decide)).trans (Gen.V1_of m (outs1 m) c main_arg1 (by decide))
  -- region 0's two cells are the two sums over all pairs
  have hq : ∀ y : S1x1.Idx, ((dat0 (Ve0 m) c).arrAt 3 cfg0.N : S1x1.Idx → EReal) y
      = Spec.sumQuot (m ((c : Thread nD τ).loc main_arg0)) (m ((c : Thread nD τ).loc main_arg1)) := fun y => by
    rw [final0_3, acc0_3_eq (Ve0 m) c y 63 (by decide), sum_tileSum]
    rfl
  have hqq : ∀ y : S1x1.Idx, ((dat0 (Ve0 m) c).arrAt 4 cfg0.N : S1x1.Idx → EReal) y
      = Spec.sumQuotSq (m ((c : Thread nD τ).loc main_arg0)) (m ((c : Thread nD τ).loc main_arg1)) := fun y => by
    rw [final0_4, acc0_4_eq (Ve0 m) c y 63 (by decide), sum_tileSum]
    rfl
  -- so the scale region 1 reads, the host's quotient of the two, is the specification's
  have hs : scl (Ve2 m) c = Spec.scale (m ((c : Thread nD τ).loc main_arg0)) (m ((c : Thread nD τ).loc main_arg1)) := by
    show (Ve2 m c main_v4 : S1x1.Idx → EReal) (ix2 0 0) = _
    rw [scale_arr, cast_scalar_to_cell, hostDivf_apply, cast_cell_to_scalar, cast_cell_to_scalar, hq, hqq]
    rfl
  -- region 1's cell is the sum of the squared distortions under that scale; the host divides it by the number of pairs
  rw [host_tail, hostDivf_apply, cast_cell_to_scalar, constant_apply, final1_4, acc1_4_eq (Ve2 m) c _ 63 (by decide),
    sum_tileSum, hs, hM2, hD2]
  rfl

end Cert.KernelIdeal.Hand

end
-- ==== Proof.RefValue.lean ====
/-
  What the reference returns, over the extended reals: the loss, read off its run one operation at a time.
-/
import proofs.«129287_j45200235823192_1_alg».proof.Proof.Gen.ReferenceIdeal.Read
import proofs.«129287_j45200235823192_1_alg».proof.Proof.Spec
import proofs.«129287_j45200235823192_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen

open Cert.ReferenceIdeal.Read

variable (x0 : (⟨S4096x64, .f32⟩ : BufTy).Contents (Elt Ideal)) (x1 : (⟨S4096x4096, .f32⟩ : BufTy).Contents (Elt Ideal))

/-- The word of the float one is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The row reduce's operand index at row `R`, term `k`. -/
theorem idx_v1 (R : Fin 4096) (k : Fin 64) : idx_main_v1 (ix1 R) k = ix2 R k :=
  funext fun a => Fin.ext (by match a with | ⟨0, _⟩ => rfl | ⟨1, _⟩ => rfl)

/-- The squared norm of row `R`. -/
theorem sqn_at (R : Fin 4096) : val_main_v1 (F := Ideal) x0 (ix1 R) = Spec.sqn x0 R := by
  rw [val_main_v1_apply]
  simp only [val_main_cst_apply, val_main_v0_apply, Ideal.ofBits_def, Ideal.ofBits_zero_f32, zero_add,
    Ideal.mulf_def, idx_v1]
  rfl

theorem lidx_v3 (R C : Fin 4096) (k : Fin 64) : lidx_main_v3 (ix2 R C) k = ix2 R k :=
  funext fun a => Fin.ext (by match a with | ⟨0, _⟩ => rfl | ⟨1, _⟩ => rfl)
theorem ridx_v3 (R C : Fin 4096) (k : Fin 64) : idx_main_v2 (ridx_main_v3 (ix2 R C) k) = ix2 C k :=
  funext fun a => Fin.ext (by match a with | ⟨0, _⟩ => rfl | ⟨1, _⟩ => rfl)

/-- The inner product of rows `R` and `C`. -/
theorem gram_at (R C : Fin 4096) : val_main_v3 (F := Ideal) x0 (ix2 R C) = Spec.gram x0 R C := by
  rw [val_main_v3_apply]
  simp only [val_main_v2_apply, lidx_v3, ridx_v3]
  rfl

theorem idx_v6 (R C : Fin 4096) : idx_main_v4 (idx_main_v6 (ix2 R C)) = ix1 R :=
  funext fun a => Fin.ext (by match a with | ⟨0, _⟩ => rfl)
theorem idx_v7 (R C : Fin 4096) : idx_main_v5 (idx_main_v7 (ix2 R C)) = ix1 C :=
  funext fun a => Fin.ext (by match a with | ⟨0, _⟩ => rfl)

/-- The clamped squared distance. -/
theorem sq_at (R C : Fin 4096) : val_main_v13 (F := Ideal) x0 (ix2 R C) = Spec.sq x0 R C := by
  rw [val_main_v13_apply, val_main_v11_apply, val_main_v8_apply, val_main_v10_apply, val_main_v6_apply, val_main_v4_apply,
    val_main_v7_apply, val_main_v5_apply, val_main_v9_apply, val_main_v12_apply, val_main_cst_0_apply, val_main_cst_1_apply,
    idx_v6, idx_v7, sqn_at, sqn_at, gram_at]
  simp only [Ideal.ofBits_def, Ideal.addf_def, Ideal.subf_def, Ideal.mulf_def, Ideal.maximumf_def]
  rfl

/-- The distance. -/
theorem dist_at (R C : Fin 4096) : val_main_v20 (F := Ideal) x0 (ix2 R C) = Spec.dist x0 R C := by
  rw [val_main_v20_apply, val_main_v15_apply, val_main_v19_apply, val_main_v18_apply, val_main_v17_apply,
    val_main_v14_apply, val_main_v16_apply, val_main_call0_v1_apply, val_main_call1_v1_apply,
    val_main_call0_v0_apply, val_main_call1_v0_apply, val_main_cst_2_apply, val_main_cst_3_apply,
    val_main_cst_4_apply, val_main_cst_5_apply, sq_at]
  simp only [Ideal.ofBits_def, Ideal.cmpf_def, Ideal.hostUnary_sqrt_def]
  rfl

/-- The comparison of the two coordinate words: they are below 4096, so the words are equal exactly when the coordinates are. -/
theorem eye_word (R C : Fin 4096) :
    IntOp.cmpi .eq (IntOp.addi (BitVec.ofNat 32 R.val) 0#32) (BitVec.ofNat 32 C.val) = if R = C then 1#1 else 0#1 := by
  have hR := R.isLt
  have hC := C.isLt
  show BitVec.ofBool (BitVec.ofNat 32 R.val + 0#32 == BitVec.ofNat 32 C.val) = _
  rw [BitVec.add_zero]
  by_cases h : R = C
  · subst h
    rw [if_pos rfl, beq_self_eq_true]
    rfl
  · rw [if_neg h]
    have hne : BitVec.ofNat 32 R.val ≠ BitVec.ofNat 32 C.val := by
      intro e
      have e' := congrArg BitVec.toNat e
      simp only [BitVec.toNat_ofNat] at e'
      exact h (Fin.ext (by omega))
    rw [beq_eq_false_iff_ne.mpr hne]
    rfl

/-- One on the diagonal, zero off it. -/
theorem eye_at (R C : Fin 4096) : val_main_v26 (F := Ideal) (ix2 R C) = Spec.eye R C := by
  rw [val_main_v26_apply, val_main_v25_apply, val_main_v24_apply, val_main_v21_apply, val_main_v22_apply,
    val_main_v23_apply, val_main_c_apply]
  show FloatOps.uitofp (F := Ideal) .f32 (IntOp.cmpi .eq (IntOp.addi (BitVec.ofNat 32 R.val) 0#32) (BitVec.ofNat 32 C.val)) = _
  rw [eye_word]
  unfold Spec.eye
  by_cases h : R = C
  · rw [if_pos h, if_pos h]
    show (((1#1 : BitVec 1).toNat : ℝ) : EReal) = Ideal.ofBits .f32 0x3F800000#32
    rw [ofBits_one]; simp
  · rw [if_neg h, if_neg h]
    show (((0#1 : BitVec 1).toNat : ℝ) : EReal) = Ideal.ofBits .f32 0x00000000#32
    rw [Ideal.ofBits_zero_f32]; simp

/-- The denominator. -/
theorem denom_at (R C : Fin 4096) : val_main_v29 (F := Ideal) x1 (ix2 R C) = Spec.denom x1 R C := by
  rw [val_main_v29_apply, val_main_v27_apply, val_main_v28_apply, val_main_cst_6_apply, eye_at]
  simp only [Ideal.ofBits_def, Ideal.addf_def]
  rfl

/-- The quotient. -/
theorem quot_at (R C : Fin 4096) : val_main_v30 (F := Ideal) x0 x1 (ix2 R C) = Spec.quot x0 x1 R C := by
  rw [val_main_v30_apply, dist_at, denom_at]
  simp only [Ideal.hostDivf_def]
  rfl

/-- The sum of the quotients over all pairs. -/
theorem sumQuot_at (i : S_.Idx) : val_main_v31 (F := Ideal) x0 x1 i = Spec.sumQuot x0 x1 := by
  rw [val_main_v31_apply, val_main_cst_7_apply, Ideal.ofBits_def, Ideal.ofBits_zero_f32, zero_add, sum_idx2]
  exact Finset.sum_congr rfl fun R _ => Finset.sum_congr rfl fun C _ => quot_at x0 x1 R C

/-- The sum of the squared quotients over all pairs. -/
theorem sumQuotSq_at (i : S_.Idx) : val_main_v33 (F := Ideal) x0 x1 i = Spec.sumQuotSq x0 x1 := by
  rw [val_main_v33_apply, val_main_cst_8_apply, Ideal.ofBits_def, Ideal.ofBits_zero_f32, zero_add, sum_idx2]
  refine Finset.sum_congr rfl fun R _ => Finset.sum_congr rfl fun C _ => ?_
  rw [val_main_v32_apply, quot_at, Ideal.mulf_def]

/-- The scale. -/
theorem scale_at (i : S_.Idx) : val_main_v34 (F := Ideal) x0 x1 i = Spec.scale x0 x1 := by
  rw [val_main_v34_apply, sumQuot_at, sumQuotSq_at, Ideal.hostDivf_def]
  rfl

/-- One pair's squared distortion under the scale. -/
theorem term_at (R C : Fin 4096) :
    val_main_v40 (F := Ideal) x0 x1 (ix2 R C) = Spec.term x0 x1 (Spec.scale x0 x1) R C := by
  rw [val_main_v40_apply, val_main_v38_apply, val_main_v37_apply, val_main_v36_apply, val_main_v35_apply,
    val_main_v39_apply, scale_at, dist_at, denom_at]
  simp only [Ideal.hostDivf_def, Ideal.mulf_def, Ideal.subf_def]
  rfl

/-- The sum of the squared distortions over all pairs. -/
theorem sumTerm_at (i : S_.Idx) : val_main_v41 (F := Ideal) x0 x1 i = Spec.sumTerm x0 x1 (Spec.scale x0 x1) := by
  rw [val_main_v41_apply, val_main_cst_9_apply, Ideal.ofBits_def, Ideal.ofBits_zero_f32, zero_add, sum_idx2]
  exact Finset.sum_congr rfl fun R _ => Finset.sum_congr rfl fun C _ => term_at x0 x1 R C

/-- The loss. -/
theorem loss_at (i : S_.Idx) : val_main_v42 (F := Ideal) x0 x1 i = Spec.loss x0 x1 := by
  rw [val_main_v42_apply, sumTerm_at, val_main_cst_10_apply, Ideal.ofBits_def, Ideal.hostDivf_def]
  rfl

/-- The run's term for the result is the loss of the argument arrays. -/
theorem res_loss (m : (ℓ : Loc nD τ sig) → Buf (Elt Ideal) ℓ) (c : Dev nD) :
    Cert.ReferenceIdeal.Value.res_main_v42 m c
      = fun _ => Spec.loss (m ((c.tc : Thread nD τ).loc main_arg0)) (m ((c.tc : Thread nD τ).loc main_arg1)) := by
  rw [val_main_v42_eq]
  funext i
  exact loss_at _ _ i

/-- Every weakly fair execution of the reference ends with its result at the loss of the argument arrays, and the
    arguments as launched. -/
theorem run_loss (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v42)
          = (fun _ => Spec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono (fun _ h c => ⟨(h c).1.trans (res_loss m c), (h c).2⟩)
    (Cert.ReferenceIdeal.Value.run (F := Ideal) m ρ)

end Cert.ReferenceIdeal.RefValue

end
-- ==== Proof.lean ====
/-
  The distortion-loss kernel against its reference.

  The kernel computes the loss in two passes over an 8 × 8 grid of 512 × 512 tiles of the 4096 × 4096 pair table: the
  first pass accumulates the sum of the quotients dist / denom and the sum of their squares, the host divides the two
  for the scale, and the second pass accumulates the squared distortions under that scale; the host divides by the
  number of off-diagonal pairs.  The reference computes the same three sums over the whole table at once.

  Over the extended reals both are one function of the two argument arrays (Spec.lean): tile by tile the kernel's
  pairwise distance, denominator and terms are the reference's entry by entry (a product of rounded operands is the
  product, the diagonal mask is the identity matrix), and a sum over all pairs is the sum over the tiles of the tiles'
  sums, in any order, because addition of extended reals is commutative and associative.  No law that needs finite
  entries is used, so the precondition is never opened.

  The frames: each region's pipeline is run from proof data that carry the output cells from point to point as a fold
  of the body's arithmetic; the points table, read through two windows, is held half by each; the two regions and the
  two host stretches are composed in order.  The same text, generic in the float instance, serves the word-level
  program and the idealized one.  The idealization rewrote nothing, so there is nothing to preserve.
-/
import proofs.«129287_j45200235823192_1_alg».proof.Defs
import proofs.«129287_j45200235823192_1_alg».proof.Proof.Gen.Kernel
import proofs.«129287_j45200235823192_1_alg».proof.Proof.Gen.KernelIdeal
import proofs.«129287_j45200235823192_1_alg».proof.Proof.Gen.ReferenceIdeal
import proofs.«129287_j45200235823192_1_alg».proof.Proof.Gen.Pre_finite_inputs
import proofs.«129287_j45200235823192_1_alg».proof.Proof.KernelRun
import proofs.«129287_j45200235823192_1_alg».proof.Proof.KernelRunK
import proofs.«129287_j45200235823192_1_alg».proof.Proof.KernelValue
import proofs.«129287_j45200235823192_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched: they are among the buffers the run reads back,
    and no item writes them. -/
theorem frame_k [Cert.Kernel.Facts] [Cert.Pre_finite_inputs.Facts] : Cert.frame_Kernel := fun m ρ _ =>
  (θ_run (Cert.Kernel.defs (F := Bits)) _ _).mono
    (fun _ h c =>
      ⟨(h c _ (Cert.Kernel.Hand.mem_uc Cert.Kernel.main_arg0 (by decide))).trans (Cert.Kernel.Gen.V4_main_arg0 m (Cert.Kernel.Hand.outs m) c),
       (h c _ (Cert.Kernel.Hand.mem_uc Cert.Kernel.main_arg1 (by decide))).trans (Cert.Kernel.Gen.V4_main_arg1 m (Cert.Kernel.Hand.outs m) c)⟩)
    (Cert.Kernel.Hand.run_all (F := Bits) m ρ)

/-- The idealized program likewise. -/
theorem frame_ki [Cert.KernelIdeal.Facts] [Cert.Pre_finite_inputs.Facts] : Cert.frame_KernelIdeal := fun m ρ _ =>
  (θ_run (Cert.KernelIdeal.defs (F := Ideal)) _ _).mono
    (fun _ h c =>
      ⟨(h c _ (Cert.KernelIdeal.Hand.mem_uc Cert.KernelIdeal.main_arg0 (by decide))).trans (Cert.KernelIdeal.Gen.V4_main_arg0 m (Cert.KernelIdeal.Hand.outs m) c),
       (h c _ (Cert.KernelIdeal.Hand.mem_uc Cert.KernelIdeal.main_arg1 (by decide))).trans (Cert.KernelIdeal.Gen.V4_main_arg1 m (Cert.KernelIdeal.Hand.outs m) c)⟩)
    (Cert.KernelIdeal.Hand.run_all (F := Ideal) m ρ)

/-- The reference runs and leaves its arguments as launched: its run with the result dropped. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.RefValue.run_loss m ρ)

/-- Both programs end at the loss of the argument arrays, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c =>
        ⟨(h c _ (Cert.KernelIdeal.Hand.mem_uc Cert.KernelIdeal.main_v7 (by decide))).trans (Cert.KernelIdeal.Hand.final_value m c),
         (h c _ (Cert.KernelIdeal.Hand.mem_uc Cert.KernelIdeal.main_arg0 (by decide))).trans (Cert.KernelIdeal.Gen.V4_main_arg0 m (Cert.KernelIdeal.Hand.outs m) c),
         (h c _ (Cert.KernelIdeal.Hand.mem_uc Cert.KernelIdeal.main_arg1 (by decide))).trans (Cert.KernelIdeal.Gen.V4_main_arg1 m (Cert.KernelIdeal.Hand.outs m) c)⟩)
      (Cert.KernelIdeal.Hand.run_all (F := Ideal) m ρ)
  · refine (θ_run (Cert.ReferenceIdeal.defs (F := Ideal)) _ _).mono (fun _ h c => ⟨(h c).1.trans ?_, (h c).2⟩)
      (Cert.ReferenceIdeal.RefValue.run_loss m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
